-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x16 : Shape := ⟨2, ![3200000, 16]⟩
abbrev S16x16 : Shape := ⟨2, ![16, 16]⟩
abbrev S16 : Shape := ⟨1, ![16]⟩
abbrev S_ : Shape := ⟨0, ![]⟩

class Facts : Prop where
  bcast_S_S3200000x16 : S_.BroadcastsInDim S3200000x16 (![] : Fin 0 → Fin S3200000x16.rank)
  reducesTo_S3200000x16_S_d0_1 : S3200000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S3200000x16 .f32) (main_arg1 : FVec F S16x16 .f32) (main_arg2 : FVec F S16 .f32) (main_arg3 : FVec F S16x16 .f32) (main_arg4 : FVec F S16 .f32) : IVec S_ 1 :=
  let main_v0 : FVec F S3200000x16 .f32 := Host.absf main_arg0
  let main_cst : FVec F S_ .f32 := constant S_ .f32 0x7F800000#32
  let main_v1 : FVec F S3200000x16 .f32 := broadcastInDim S3200000x16 ![] bcast_S_S3200000x16 main_cst
  let main_v2 : IVec S3200000x16 1 := cmpf .olt main_v0 main_v1
  let main_c : IVec S_ 1 := constantI S_ 1 1#1
  let main_v3 : IVec S_ 1 := (fun x v => Host.reduce IntOp.andi x v reducesTo_S3200000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S3200000x16 : Shape := ⟨2, ![3200000, 16]⟩
abbrev S16x16 : Shape := ⟨2, ![16, 16]⟩
abbrev S16 : Shape := ⟨1, ![16]⟩
abbrev S16x3200000 : Shape := ⟨2, ![16, 3200000]⟩
abbrev S16x1 : Shape := ⟨2, ![16, 1]⟩
abbrev S16x80000 : Shape := ⟨2, ![16, 80000]⟩
abbrev S16x160000 : Shape := ⟨2, ![16, 160000]⟩

abbrev nBuf : Space → Nat
  | .hbm => 12
  | .vmem => 10
  | .smem => 0
  | _ => 0

abbrev bufTy : (tb : Table) → Fin (tcTables nBuf tb) → BufTy
  | .hbm, ⟨0, _⟩ => ⟨S3200000x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x3200000, .f32⟩
  | .hbm, ⟨6, _⟩ => ⟨S16x16, .f32⟩
  | .hbm, ⟨7, _⟩ => ⟨S16x16, .f32⟩
  | .hbm, ⟨8, _⟩ => ⟨S16x1, .f32⟩
  | .hbm, ⟨9, _⟩ => ⟨S16x1, .f32⟩
  | .hbm, ⟨10, _⟩ => ⟨S16x3200000, .f32⟩
  | .hbm, ⟨11, _⟩ => ⟨S3200000x16, .f32⟩
  | .local _ .vmem, ⟨0, _⟩ => ⟨S16x80000, .f32⟩
  | .local _ .vmem, ⟨1, _⟩ => ⟨S16x80000, .f32⟩
  | .local _ .vmem, ⟨2, _⟩ => ⟨S16x80000, .f32⟩
  | .local _ .vmem, ⟨3, _⟩ => ⟨S16x80000, .f32⟩
  | .local _ .vmem, ⟨4, _⟩ => ⟨S16x16, .f32⟩
  | .local _ .vmem, ⟨5, _⟩ => ⟨S16x1, .f32⟩
  | .local _ .vmem, ⟨6, _⟩ => ⟨S16x16, .f32⟩
  | .local _ .vmem, ⟨7, _⟩ => ⟨S16x1, .f32⟩
  | .local _ .vmem, ⟨8, _⟩ => ⟨S16x160000, .f32⟩
  | .local _ .vmem, ⟨9, _⟩ => ⟨S16x160000, .f32⟩
  | _, _ => ⟨S3200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x160000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3200000x16_S16x3200000_1_0 : S3200000x16.Transposes [1, 0] S16x3200000
  transposes_S16x16_S16x16_1_0 : S16x16.Transposes [1, 0] S16x16
  shapeCasts_S16_S16x1 : S16.ShapeCasts S16x1
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x80000_S16x80000_0_0 : ∀ a, (![0, 0] : Fin 2 → Nat) a + S16x80000.size a ≤ S16x80000.size a
  h_S16x80000 : 0 < S16x80000.numel
  shapeCasts_S16x80000_S16x80000 : S16x80000.ShapeCasts S16x80000
  broadcasts_S16x1_S16x80000 : S16x1.Broadcasts S16x80000
  inb_S16x160000_S16x80000_0_0 : ∀ a, (![0, 0] : Fin 2 → Nat) a + S16x80000.size a ≤ S16x160000.size a
  inb_S16x160000_S16x80000_0_80000 : ∀ a, (![0, 80000] : Fin 2 → Nat) a + S16x80000.size a ≤ S16x160000.size a
  transposes_S16x3200000_S3200000x16_1_0 : S16x3200000.Transposes [1, 0] S3200000x16
  dot_S16x16_S16x80000_S16x80000_1_0_0_1_n_n_wf : DotDims.WF S16x16 S16x80000 S16x80000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x80000.size a ≤ S16x3200000.size a
  hwx0_0 : ∀ i : grid0.Coords, EltTy.bits .f32 = 32 ∨ (Rect.block (s := S16x3200000) S16x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x80000.size a ≤ S16x3200000.size a
  hwx0_1 : ∀ i : grid0.Coords, EltTy.bits .f32 = 32 ∨ (Rect.block (s := S16x3200000) S16x80000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x160000.size a ≤ S16x3200000.size a
  hwx0_6 : ∀ i : grid0.Coords, EltTy.bits .f32 = 32 ∨ (Rect.block (s := S16x3200000) S16x160000.size (cc0_transform_6 i) (hinb0_6 i)).WholeWords (EltTy.packing .f32)

variable [Facts₀]

def dot_S16x16_S16x80000_S16x80000_1_0_0_1_n_n : DotDims S16x16 S16x80000 S16x80000 where
  lhsContracting := [1]
  rhsContracting := [0]
  lhsNonContracting := [0]
  rhsNonContracting := [1]
  lhsBatch := []
  rhsBatch := []
  wf := dot_S16x16_S16x80000_S16x80000_1_0_0_1_n_n_wf

abbrev win0_0 : Pipeline.Window sig grid0 :=
  Pipeline.Window.ofSpec (Memref.whole main_v0) S16x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S16x160000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S3200000x16 : Shape := ⟨2, ![3200000, 16]⟩
abbrev S16x16 : Shape := ⟨2, ![16, 16]⟩
abbrev S16 : Shape := ⟨1, ![16]⟩
abbrev S1x16 : Shape := ⟨2, ![1, 16]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S3200000x16, .f32⟩
  | .hbm, ⟨6, _⟩ => ⟨S1x16, .f32⟩
  | .hbm, ⟨7, _⟩ => ⟨S3200000x16, .f32⟩
  | .hbm, ⟨8, _⟩ => ⟨S3200000x16, .f32⟩
  | .hbm, ⟨9, _⟩ => ⟨S_, .f32⟩
  | .hbm, ⟨10, _⟩ => ⟨S3200000x16, .f32⟩
  | .hbm, ⟨11, _⟩ => ⟨S3200000x16, .f32⟩
  | .hbm, ⟨12, _⟩ => ⟨S3200000x16, .f32⟩
  | .hbm, ⟨13, _⟩ => ⟨S1x16, .f32⟩
  | .hbm, ⟨14, _⟩ => ⟨S3200000x16, .f32⟩
  | .hbm, ⟨15, _⟩ => ⟨S3200000x16, .f32⟩
  | .hbm, ⟨16, _⟩ => ⟨S_, .f32⟩
  | .hbm, ⟨17, _⟩ => ⟨S3200000x16, .f32⟩
  | .hbm, ⟨18, _⟩ => ⟨S3200000x16, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  dot_S3200000x16_S16x16_S3200000x16_1_0_0_1_n_n_wf : DotDims.WF S3200000x16 S16x16 S3200000x16 [1] [0] [0] [1] [] []

variable [Facts₀]

def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf

class Facts : Prop extends Facts₀ where

variable [Facts]
-- ==== Proof.KernelBody.lean ====
/-
  The proof data of the kernel region and what its body leaves, for the kernel read at any float
  instance.

  The region is a pipeline over a grid of 20 points. Point t sees two adjacent column blocks of the transposed
  input x^T (16 x 3200000): columns [160000 t, 160000 t + 80000) through window 0 and the next 80000 columns
  through window 1, both windows over ONE array; the two weight matrices (transposed) and the two bias columns
  whole through windows 2 to 5; and writes the 16 x 160000 output block of columns [160000 t, 160000 (t + 1))
  through window 6. The body computes, for each of the two input blocks X,
      relu (W2^T . relu (W1^T . X + b1) + b2)
  and stores the first result in the left half of the output block and the second in the right half.
-/
import proofs.«174670_g52252572123261_cont_8to1_c_723_16_alg».proof.Proof.Gen.Kernel.Launch
import proofs.«174670_g52252572123261_cont_8to1_c_723_16_alg».proof.Proof.Gen.Kernel.Skeleton
import proofs.«174670_g52252572123261_cont_8to1_c_723_16_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation; -/
abbrev V₀ (c : Dev nD) : Valuation τ sig (Elt F) := fun b => m ((c : Dev nD), b)

/-- and after the five host operations before the region (three transposes, two reshapes). -/
abbrev V0 (c : Dev nD) : Valuation τ sig (Elt F) := StableHlo.after hostOps0 (V₀ m c)

/-- The same, read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole 16 x 16 buffer; the whole 16 x 1 buffer; the whole 16 x 80000 buffer. -/
abbrev rW : Rect S16x16 := Rect.unit (s := S16x16) ![0, 0] S16x16.size inb_S16x16_S16x16_0_0
abbrev rb : Rect S16x1 := Rect.unit (s := S16x1) ![0, 0] S16x1.size inb_S16x1_S16x1_0_0
abbrev rX : Rect S16x80000 := Rect.unit (s := S16x80000) ![0, 0] S16x80000.size inb_S16x80000_S16x80000_0_0
/-- The left and the right half of the 16 x 160000 output buffer. -/
abbrev rL : Rect S16x160000 := Rect.unit (s := S16x160000) ![0, 0] S16x80000.size inb_S16x160000_S16x80000_0_0
abbrev rR : Rect S16x160000 := Rect.unit (s := S16x160000) ![0, 80000] S16x80000.size inb_S16x160000_S16x80000_0_80000

/-! ## What the body leaves in the output window's buffer -/

/-- The output buffer after the body, from the six input blocks: its two stores as pieces, last first — the right
    half from the second input block, the left half from the first. -/
def out6 (x0 x1 : Vec F S16x80000 .f32) (w1 : Vec F S16x16 .f32) (b1 : Vec F S16x1 .f32) (w2 : Vec F S16x16 .f32) (b2 : Vec F S16x1 .f32) :
    Vec F S16x160000 .f32 :=
  View.canon [⟨rR, k0_pay6 (View.ld w1 rW) (View.ld w2 rW) (View.ld b1 rb) (View.ld b2 rb) (View.ld x1 rX)⟩,
    ⟨rL, k0_pay5 (View.ld w1 rW) (View.ld w2 rW) (View.ld b1 rb) (View.ld b2 rb) (View.ld x0 rX)⟩]

/-! ## The pipeline's proof data -/

/-- The proof data on core `c`: the arrays as the region finds them; after the body at point `t` each input's
    buffer at its block and the output's at `out6` of the input blocks; the invariant the scoped rest and the
    generator register, untouched; nothing owed; the two windows on the one input array hold a half of it each, the
    others the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = out6 (iblk m c 0 t) (iblk m c 1 t) (iblk m c 2 t) (iblk m c 3 t) (iblk m c 4 t) (iblk m c 5 t) := by
  dsimp only [dats]

theorem q0 (c : Dev nD) : (dats m 0 c).q 0 = fullShare.left := by dsimp only [dats]
theorem q1 (c : Dev nD) : (dats m 0 c).q 1 = fullShare.right := by dsimp only [dats]

/-! ## The arrays after the run -/

/-- The kernel's output array (the transposed result, 16 x 3200000) after the last write-back, as the pipeline
    library computes it from the proof data: block `t` of its columns overwritten by what point `t` left. -/
def out5 (c : Dev nD) : Buf (Elt F) ((c : Thread nD τ).loc main_v5) := (dats m 0 c).arrAt 6 cfg0.N

/-- The program's result: that array transposed back to 3200000 x 16 by the one host operation after the region. -/
def res6 (c : Dev nD) : Buf (Elt F) ((c : Thread nD τ).loc main_v6) :=
  transpose S3200000x16 [1, 0] (out5 m c) transposes_S16x3200000_S3200000x16_1_0

/-! ## What the body finds in the input windows' buffers -/

/-- An input window's current buffer holds the window's block at every point. The body leaves every input buffer as
    it found it, so at a point where the pipeline does not fetch (the block index has not moved since the point
    before) the buffer still holds the same block; where it fetches, the fetch of an uncut window writes the block.
    For the two input-block windows (fetched at every point) -/
theorem before_0 (c : Dev nD) (t : Fin cfg0.N) (d) : (dats m 0 c).before 0 t d = iblk m c 0 t := by
  refine ((dats m 0 c).before_in_eq_fetched 0 rfl (fun _ => rfl) (fun _ _ _ => rfl) (fun t => ?_) t d).trans ?_
  · rw [after0]; unfold Dat.blockOf iblk; rw [A_eq]
  · unfold Dat.fetched Dat.blockOf iblk; rw [A_eq]; rfl
theorem before_1 (c : Dev nD) (t : Fin cfg0.N) (d) : (dats m 0 c).before 1 t d = iblk m c 1 t := by
  refine ((dats m 0 c).before_in_eq_fetched 1 rfl (fun _ => rfl) (fun _ _ _ => rfl) (fun t => ?_) t d).trans ?_
  · rw [after1]; unfold Dat.blockOf iblk; rw [A_eq]
  · unfold Dat.fetched Dat.blockOf iblk; rw [A_eq]; rfl
/-- and for the weights and biases (fetched at the first point only). -/
theorem before_2 (c : Dev nD) (t : Fin cfg0.N) (d) : (dats m 0 c).before 2 t d = iblk m c 2 t := by
  refine ((dats m 0 c).before_in_eq_fetched 2 rfl (fun _ => rfl) (fun _ _ _ => rfl) (fun t => ?_) t d).trans ?_
  · rw [after2]; unfold Dat.blockOf iblk; rw [A_eq]
  · unfold Dat.fetched Dat.blockOf iblk; rw [A_eq]; rfl
theorem before_3 (c : Dev nD) (t : Fin cfg0.N) (d) : (dats m 0 c).before 3 t d = iblk m c 3 t := by
  refine ((dats m 0 c).before_in_eq_fetched 3 rfl (fun _ => rfl) (fun _ _ _ => rfl) (fun t => ?_) t d).trans ?_
  · rw [after3]; unfold Dat.blockOf iblk; rw [A_eq]
  · unfold Dat.fetched Dat.blockOf iblk; rw [A_eq]; rfl
theorem before_4 (c : Dev nD) (t : Fin cfg0.N) (d) : (dats m 0 c).before 4 t d = iblk m c 4 t := by
  refine ((dats m 0 c).before_in_eq_fetched 4 rfl (fun _ => rfl) (fun _ _ _ => rfl) (fun t => ?_) t d).trans ?_
  · rw [after4]; unfold Dat.blockOf iblk; rw [A_eq]
  · unfold Dat.fetched Dat.blockOf iblk; rw [A_eq]; rfl
theorem before_5 (c : Dev nD) (t : Fin cfg0.N) (d) : (dats m 0 c).before 5 t d = iblk m c 5 t := by
  refine ((dats m 0 c).before_in_eq_fetched 5 rfl (fun _ => rfl) (fun _ _ _ => rfl) (fun t => ?_) t d).trans ?_
  · rw [after5]; unfold Dat.blockOf iblk; rw [A_eq]
  · unfold Dat.fetched Dat.blockOf iblk; rw [A_eq]; rfl

/-! ## The two stores cover the output buffer -/

/-- Every index of the 16 x 160000 buffer lies in the right or in the left half: the two halves are the two blocks of
    80000 columns. -/
theorem cover_out (pR pL : Vec F S16x80000 .f32) (y : S16x160000.Idx) :
    ∃ pc ∈ ([⟨rR, pR⟩, ⟨rL, pL⟩] : List (View.Piece (Elt F) S16x160000 .f32)), y ∈ pc.1.set :=
  View.cover_of_tiled [⟨rR, pR⟩, ⟨rL, pL⟩] S16x80000.size (by rfl) y

/-! ## The body's triple -/

set_option maxHeartbeats 1000000 in
/-- The body's triple. On seven whole buffers, the six inputs' reading `x0 x1 w1 b1 w2 b2` and the output's reading
    anything, the body ends with the six inputs' as they were and the output's at `out6` of them. It loads the two
    weight matrices, the two biases and the first input block; loads the left half of the output buffer (a value it
    never uses); stores the first result over the left half; loads the second input block and the right half of the
    output buffer (unused again, and disjoint from the store before it); and stores the second result over the right
    half. The two stored halves cover the buffer (`cover_out`), so what it reads afterwards is the canon of the two
    pieces, whatever it held at the start. -/
theorem sound_kernel (c : Dev nD) (E : Set ℕ) (i : grid0.Coords)
    (arg1 : Memref sig .tc .vmem S16x80000 .f32) (harg1 : arg1.IsWhole) (arg2 : Memref sig .tc .vmem S16x80000 .f32) (harg2 : arg2.IsWhole)
    (arg3 : Memref sig .tc .vmem S16x16 .f32) (harg3 : arg3.IsWhole) (arg4 : Memref sig .tc .vmem S16x1 .f32) (harg4 : arg4.IsWhole)
    (arg5 : Memref sig .tc .vmem S16x16 .f32) (harg5 : arg5.IsWhole) (arg6 : Memref sig .tc .vmem S16x1 .f32) (harg6 : arg6.IsWhole)
    (arg7 : Memref sig .tc .vmem S16x160000 .f32) (harg7 : arg7.IsWhole)
    (x0 x1 : Vec F S16x80000 .f32) (w1 : Vec F S16x16 .f32) (b1 : Vec F S16x1 .f32) (w2 : Vec F S16x16 .f32) (b2 : Vec F S16x1 .f32)
    (K : PUnit → sProp 𝕄) :
    iprop(owns (c : Thread nD τ) arg1 fullShare x0 ∗ owns (c : Thread nD τ) arg2 fullShare x1
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d)
        ∗ (iprop(owns (c : Thread nD τ) arg1 fullShare x0 ∗ owns (c : Thread nD τ) arg2 fullShare x1
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (out6 x0 x1 w1 b1 w2 b2)) -∗ K ⟨⟩))
      ⊢ wp frame (wpE (defs₀ (F := F)) Variants.none c none) E
          (cc0__mlp_body i arg1 harg1 arg2 harg2 arg3 harg3 arg4 harg4 arg5 harg5 arg6 harg6 arg7 harg7) K := by
  simp only [cc0__mlp_body_eq_skeleton]; unfold cc0__mlp_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

/-! ## The body at a point of the grid -/

/-- What the pipeline hands the body at point `t`: the invariant, what the core owes, and each of the seven windows'
    current buffer at what it holds then. -/
def atEntry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back: the same at the next point, each buffer at what the proof data say the body leaves. -/
def atExit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at point `t`. Each input buffer holds its window's block (`before_0` … `before_5`) and the output
    buffer holds something, so the body's triple applies at the six blocks; the invariant and what the core owes are
    not touched by the body and are the same at the next point. -/
theorem body_at (c : Dev nD) (t : Fin cfg0.N) :
    atEntry m c t ⊢ wp frame (wpE (defs₀ (F := F)) Variants.none c none) Set.univ (bodyAt0 t) (fun _ => atExit m c t) := by
  unfold atEntry atExit bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- The library's body obligation, at every point. -/
theorem body_obligation (c : Dev nD) : BodyObligation (dats (F := F) m 0 c) (defs₀ (F := F)) Variants.none () Set.univ := fun t => by
  rw [bigSep_W0, bigSep_W0]
  exact body_at m c t

end Cert.Kernel.Hand

end
-- ==== Proof.KernelTail.lean ====
/-
  The buffers after the region and after the one host operation that follows it.

  When the region ends every buffer holds what it held at the region's entry except the region's output array,
  which holds what the pipeline wrote back. The host then transposes that array into the result buffer. No host
  operation, before or after the region, writes an argument buffer, so the five arguments end as launched.
-/
import proofs.«174670_g52252572123261_cont_8to1_c_723_16_alg».proof.Proof.KernelBody
import Idealize.ShloMosaic.Lib.StableHlo.Run

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-- The valuation when the region ends: as at its entry, with the output array at what the pipeline wrote back. -/
def Wout (c : Dev nD) : Valuation τ sig (Elt F) :=
  Function.update (V0 m c) (Proc.devRef .tc main_v5) (out5 m c)

/-- At the output array the end-of-region valuation is what the pipeline wrote back. -/
theorem Wout_v5 (c : Dev nD) : Wout m c (Proc.devRef .tc main_v5) = out5 m c := by
  unfold Wout
  exact Function.update_self _ _ _

/-- At every other buffer it is the valuation at the region's entry. -/
theorem Wout_of_ne (c : Dev nD) (b : DevRef τ sig) (h : b ≠ Proc.devRef .tc main_v5) : Wout m c b = V0 m c b := by
  unfold Wout
  exact Function.update_of_ne h _ _

/-- After the tail's transpose the result buffer holds `res6`. -/
theorem tail_v6 (c : Dev nD) : StableHlo.after hostOps1 (Wout m c) (Proc.devRef .tc main_v6) = res6 m c := by
  after_results
  rw [Wout_v5]
  rfl

/-- The five arguments after the tail are the launch memory's. -/
theorem tail_arg0 (c : Dev nD) :
    StableHlo.after hostOps1 (Wout m c) (Proc.devRef .tc main_arg0) = m ((c.tc : Thread nD τ).loc main_arg0) := by
  -- the tail's transpose writes only the result buffer; an argument is not the output array, so the region left it
  -- as at its entry; and none of the five operations before the region writes an argument
  after_results
  rw [Wout_of_ne m c _ (by decide)]
  show StableHlo.after hostOps0 _ (Proc.devRef .tc main_arg0) = _
  after_results
theorem tail_arg1 (c : Dev nD) :
    StableHlo.after hostOps1 (Wout m c) (Proc.devRef .tc main_arg1) = m ((c.tc : Thread nD τ).loc main_arg1) := by
  after_results
  rw [Wout_of_ne m c _ (by decide)]
  show StableHlo.after hostOps0 _ (Proc.devRef .tc main_arg1) = _
  after_results
theorem tail_arg2 (c : Dev nD) :
    StableHlo.after hostOps1 (Wout m c) (Proc.devRef .tc main_arg2) = m ((c.tc : Thread nD τ).loc main_arg2) := by
  after_results
  rw [Wout_of_ne m c _ (by decide)]
  show StableHlo.after hostOps0 _ (Proc.devRef .tc main_arg2) = _
  after_results
theorem tail_arg3 (c : Dev nD) :
    StableHlo.after hostOps1 (Wout m c) (Proc.devRef .tc main_arg3) = m ((c.tc : Thread nD τ).loc main_arg3) := by
  after_results
  rw [Wout_of_ne m c _ (by decide)]
  show StableHlo.after hostOps0 _ (Proc.devRef .tc main_arg3) = _
  after_results
theorem tail_arg4 (c : Dev nD) :
    StableHlo.after hostOps1 (Wout m c) (Proc.devRef .tc main_arg4) = m ((c.tc : Thread nD τ).loc main_arg4) := by
  after_results
  rw [Wout_of_ne m c _ (by decide)]
  show StableHlo.after hostOps0 _ (Proc.devRef .tc main_arg4) = _
  after_results

end Cert.Kernel.Hand

end
-- ==== Proof.KernelRun.lean ====
/-
  The run of the kernel's @main, at any float instance: five host operations (the input and the two
  weight matrices transposed, the two biases reshaped to columns), the kernel region, one host operation (the
  region's output transposed back). From any memory with every semaphore counter at zero every weakly fair execution
  terminates, nothing faulting; the result buffer ends at the transpose of what the pipeline wrote back, and the five
  argument buffers end as they were.

  @main is read as three segments. Between two segments a core holds its unscoped buffers whole at a valuation, its
  generator register at some state, and owes nothing. The first segment takes the launch contents to what the five
  host operations leave. The region is entered by sorting the six buffers behind the seven windows' arrays out of
  the unscoped ones: the transposed input is read through two windows, so its full share is dealt as its left half
  to the first and its right half to the second; the other five arrays go whole to their windows; the five arguments
  and the result buffer pass the region by. At the exit each input array is as at the entry (an input array is never
  written), so the two halves recombine, and the output array holds what the pipeline wrote back: the unscoped
  buffers are whole again, at the entry valuation rewritten at the output array. The last segment transposes that
  array into the result buffer; reading the last valuation against a final state gives the claim.
-/
import proofs.«174670_g52252572123261_cont_8to1_c_723_16_alg».proof.Proof.KernelBody
import proofs.«174670_g52252572123261_cont_8to1_c_723_16_alg».proof.Proof.KernelTail
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The windows' shares -/

/-- A whole buffer held at the full share is held at its two halves, and back. -/
theorem pt_halves (ℓ : Loc nD τ sig) (f : Buf (Elt F) ℓ) :
    ((ℓ ↦{fullShare} f) : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-- The two windows on the transposed input hold a half of it each; every other window holds its array whole (the
    four parameter windows by the proof data, the output window because it is one). -/
theorem share0 (c : Dev nD) : (dats m 0 c).share 0 = fullShare.left := by
  unfold Dat.share; rw [if_neg (by decide)]; exact q0 m c
theorem share1 (c : Dev nD) : (dats m 0 c).share 1 = fullShare.right := by
  unfold Dat.share; rw [if_neg (by decide)]; exact q1 m c
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_neg (by decide)]; dsimp only [dats]
theorem share6 (c : Dev nD) : (dats m 0 c).share 6 = fullShare := by
  unfold Dat.share; rw [if_pos (by decide)]

/-! ## The seven windows' arrays and the six buffers behind them -/

/-- The windows' arrays, each read off one valuation of the buffers, are the six distinct buffers behind them whole
    at that valuation: windows 0 and 1 hold the two halves of the one input buffer at the same contents, which make
    it whole; each other window holds its own buffer whole. -/
theorem arrays_eq_arrBufs (c : Dev nD) (Wv : (b : Ref sig .tc) → Buf (Elt F) ((c : Thread nD τ).loc b)) :
    ((dats m 0 c).arrays (fun w => Wv (Pipeline.arrRef spec0 w)) : sProp 𝕄) = Pipeline.arrBufs spec0 c Wv := by
  unfold Dat.arrays Pipeline.arrBufs
  rw [bigSep_W0, bigSep_eq_bigSepL_of_eq [main_v0, main_v1, main_v3, main_v2, main_v4, main_v5] (by decide) (by decide)]
  -- windows 0 and 1 are on one array, so one wholeness fact serves both
  rw [(arr_whole0 0).set_eq_univ, (arr_whole0 2).set_eq_univ, (arr_whole0 3).set_eq_univ,
    (arr_whole0 4).set_eq_univ, (arr_whole0 5).set_eq_univ, (arr_whole0 6).set_eq_univ,
    share0, share1, share2, share3, share4, share5, share6]
  simp only [bigSepL_cons_cons, bigSepL_singleton]
  rw [pt_halves ((c : Thread nD τ).loc main_v0) (Wv main_v0)]
  exact BI.Entails.antisymm Idealize.SL.BI.sep_assoc' Idealize.SL.BI.sep_assoc

/-- A core's unscoped buffers at a valuation: the buffers behind the windows' arrays and the rest. -/
theorem ub_split (c : Dev nD) (Wv : (b : Ref sig .tc) → Buf (Elt F) ((c : Thread nD τ).loc b)) :
    (unscopedBufs c Wv : sProp 𝕄) = iprop(Pipeline.arrBufs spec0 c Wv ∗ Pipeline.unscopedRest spec0 c Wv) :=
  Pipeline.unscopedBufs_split₀ cfgs 0 winFacts₀0.arr_unscoped c Wv

/-- The unscoped buffers held at a valuation are the pipeline's arrays read off it and the rest: what the region's
    entry takes apart and its exit puts together. -/
theorem held_split (c : Dev nD) (Wv : Valuation τ sig (Elt F)) :
    (StableHlo.held (c : Thread nD τ) (Pipeline.ucRefs τ sig) Wv : sProp 𝕄)
      = iprop((dats m 0 c).arrays (fun w => Wv (Proc.devRef .tc (Pipeline.arrRef spec0 w)))
          ∗ Pipeline.unscopedRest spec0 c (fun b => Wv (Proc.devRef .tc b))) := by
  rw [← Pipeline.unscopedBufs_held c Wv, ub_split, ← arrays_eq_arrBufs m c (fun b => Wv (Proc.devRef .tc b))]

/-! ## The arrays' contents at the region's two ends -/

/-- At the entry the arrays are read off the valuation the five host operations left. -/
theorem arrAt_entry (c : Dev nD) :
    ((dats m 0 c).arrAt · 0) = fun w => V0 m c (Proc.devRef .tc (Pipeline.arrRef spec0 w)) :=
  funext fun w => A_eq m c w

/-- At the exit they are read off that valuation rewritten at the output array: an input array is never written,
    and the output array's final contents are `out5` by definition. -/
theorem arrAt_exit (c : Dev nD) : ∀ w : Fin cfg0.W,
    (dats m 0 c).arrAt w cfg0.N = Wout m c (Proc.devRef .tc (Pipeline.arrRef spec0 w))
  | ⟨0, _⟩ => ((dats m 0 c).arrAt_in 0 rfl _).trans ((A_eq m c 0).trans (Wout_of_ne m c _ (StableHlo.devRef_ne_of_ne (by decide))).symm)
  | ⟨1, _⟩ => ((dats m 0 c).arrAt_in 1 rfl _).trans ((A_eq m c 1).trans (Wout_of_ne m c _ (StableHlo.devRef_ne_of_ne (by decide))).symm)
  | ⟨2, _⟩ => ((dats m 0 c).arrAt_in 2 rfl _).trans ((A_eq m c 2).trans (Wout_of_ne m c _ (StableHlo.devRef_ne_of_ne (by decide))).symm)
  | ⟨3, _⟩ => ((dats m 0 c).arrAt_in 3 rfl _).trans ((A_eq m c 3).trans (Wout_of_ne m c _ (StableHlo.devRef_ne_of_ne (by decide))).symm)
  | ⟨4, _⟩ => ((dats m 0 c).arrAt_in 4 rfl _).trans ((A_eq m c 4).trans (Wout_of_ne m c _ (StableHlo.devRef_ne_of_ne (by decide))).symm)
  | ⟨5, _⟩ => ((dats m 0 c).arrAt_in 5 rfl _).trans ((A_eq m c 5).trans (Wout_of_ne m c _ (StableHlo.devRef_ne_of_ne (by decide))).symm)
  | ⟨6, _⟩ => (Wout_v5 m c).symm
  | ⟨_ + 7, h⟩ => absurd h (Nat.not_lt.2 (Nat.le_add_left _ _))

/-- Off the windows' arrays the two valuations agree: the buffers that pass the region by are the same at both. -/
theorem rest_Wout (c : Dev nD) :
    (Pipeline.unscopedRest spec0 c (fun b => Wout m c (Proc.devRef .tc b)) : sProp 𝕄) = Pipeline.unscopedRest spec0 c (V m c) := by
  unfold Pipeline.unscopedRest
  exact bigSep_congr fun b hb => by
    beta_reduce
    rw [Wout_of_ne m c _ (StableHlo.devRef_ne_of_ne fun e =>
      (Finset.mem_sdiff.mp hb).2 (Finset.mem_image.mpr ⟨6, Finset.mem_univ _, e.symm⟩))]

/-! ## The launch's parameters -/

/-- No core owes anything at launch: no level is assigned. -/
abbrev L : GSem nD τ sig → Finset Unit := fun _ => ∅
abbrev lv : GSem nD τ sig → Unit → ℕ := fun _ _ => 0
/-- The prefetched tables' admissible contents: there is no table. -/
abbrev adm : (p : Fin 1) → (pcfgs (F := F) p).Adm := fun p => (cfgs p).toPCfg_adm
abbrev 𝒱₀ : Variants := Variants.none
/-- The algebra of the staging cells' rounds is the whole of the certificate's. -/
abbrev EP : Emb (UR sig nD τ) (MT nD τ sig Unit (Elt F) ℕ (UR sig nD τ) ℕ) := emb₁

/-- What rides beside the buffers from segment to segment: the generator register at some state, and the core owing
    nothing. -/
abbrev R (c : Dev nD) : sProp 𝕄 :=
  iprop((∃ r, prngReg c r) ∗ ∃ W, owes (c : Thread nD τ) (0 : CellTallies nD τ sig Unit) W)

/-! ## The two host segments -/

/-- No host operation allocates. -/
theorem ops_fresh0 : ∀ op ∈ (hostOps0 : List (HloOp τ sig (Elt F))), op.fresh = ∅ := by
  intro _ h; (repeat (cases h with | head => rfl | tail _ h => ?_)); exact nomatch h
theorem ops_fresh1 : ∀ op ∈ (hostOps1 : List (HloOp τ sig (Elt F))), op.fresh = ∅ := by
  intro _ h; (repeat (cases h with | head => rfl | tail _ h => ?_)); exact nomatch h

/-- The five host operations before the region, over the unscoped buffers from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) ops_fresh0 (V₀ m) R

/-- The one host operation after the region, over the unscoped buffers from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) ops_fresh1 (Wout m) R

/-! ## The region -/

/-- The pipeline prefetches no table: it holds none. -/
theorem prefHeld0 (c : Dev nD) (q) (pf) :
    (Pipeline.prefHeld (Ix := Unit) (Name := ℕ) (U := UR sig nD τ) (Lvl := ℕ) (Val := Elt F) (pcfgs (F := F) 0).pre c q pf : sProp 𝕄) = BI.emp := by
  unfold Pipeline.prefHeld; rw [show (Finset.univ : Finset (Fin 0)) = ∅ from rfl, BI.bigSep_empty]

/-- The core owing nothing is the pipeline's account of what it owes at any point, and back. -/
theorem owesAt_intro (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin
  rw [show (dats m 0 c).owed t = 0 from rfl]
  iintro ⟨%W, HO⟩; iexists W; isplitr; · ipureintro; exact fun _ _ => Or.inl trivial
  iexact HO
theorem owesAt_elim (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  rw [show (dats m 0 c).owed t = 0 from rfl]
  iintro ⟨%W, -, HO⟩; iexists W; iexact HO

set_option backward.isDefEq.respectTransparency.types false in
/-- The region: entered from what the host operations left, the six array buffers going to the seven windows (the
    input buffer's two halves to the two windows on it), the generator register to the invariant, the arguments and
    the result buffer passing by; left with the output array at what the pipeline wrote back and everything else as
    it was. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Wout m c) ∗ R c)
  X c := iprop(∃ r, prngReg c r)
  Y c := iprop(∃ r, prngReg c r)
  Z c := Pipeline.unscopedRest spec0 c (V m c)
  hentry c := by
    rw [held_split m c (V0 m c), Pipeline.ownSems0_none, prefHeld0, arrAt_entry]
    iintro ⟨⟨⟨Ha, Hr⟩, Hp, HO⟩, -, -⟩
    imodintro
    isplitl [Ha]; · iexact Ha
    isplitr; · iempintro
    isplitl [HO]; · iapply (owesAt_intro m c 0); iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr]; · iexact Hr
    iexact Hp
  hout c := by
    rw [show (dats m 0 c).Φ (Fin.last _) = Pipeline.ΦA spec0 c from rfl, Pipeline.ownSems0_none]; unfold Pipeline.ΦA
    iintro ⟨Hr, Hp⟩
    isplitl [Hp]; · iexact Hp
    isplitr; · iempintro
    iexact Hr
  hexit c := by
    rw [held_split m c (Wout m c), rest_Wout,
      show ((dats m 0 c).arrAt · cfg0.N) = (fun w => Wout m c (Proc.devRef .tc (Pipeline.arrRef spec0 w))) from funext (arrAt_exit m c)]
    iintro ⟨Ha, HO, Hp, Hr⟩
    imodintro
    isplitl [Ha Hr]
    · isplitl [Ha]; · iexact Ha
      iexact Hr
    isplitl [Hp]; · iexact Hp
    iapply (owesAt_elim m c _); iexact HO

/-! ## @main as the three -/

/-- @main as the list of the three segments. -/
abbrev segs : List (Pipeline.Seg (pcfgs (F := F)) adm (dats m) () defs₀ 𝒱₀ L lv) :=
  [.host (seg0 m), .region (reg0 m), .host (seg1 m)]

/-- The last thread state: the unscoped buffers after the last host operation, the generator register. -/
abbrev Tₙ (c : Dev nD) : sProp 𝕄 :=
  iprop(StableHlo.held (c : Thread nD τ) (Pipeline.ucRefs τ sig) (StableHlo.after hostOps1 (Wout m c)) ∗ ∃ r, prngReg c r)

/-- An unscoped TensorCore reference is among the buffers the host operations run within. -/
theorem mem_uc (b : Ref sig .tc) (h : (Proc.devRef (τ := τ) .tc b).isScoped = false) :
    Proc.devRef .tc b ∈ Pipeline.ucRefs τ sig :=
  Finset.mem_filter.mpr ⟨StableHlo.devRef_mem_tcRefs b, by rw [h]; exact Bool.false_ne_true⟩

end Run

open Run

set_option backward.isDefEq.respectTransparency.types false in
/-- Every weakly fair execution of @main terminates without a fault; the result buffer ends at `res6`, the five
    argument buffers as launched. -/
theorem run_main : θ_run defs (onTc (τ := τ) (main (F := F))) ⟨m, fun _ => 0, ρ⟩ (fun r => ∀ c : Dev nD,
      r.2.mem ((c.tc : Thread nD τ).loc main_v6) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := by
      refine ⟨fun _ => .rfl, fun _ => .rfl, fun _ => .rfl, fun c => ?_⟩
      show iprop(StableHlo.held (c : Thread nD τ) (Pipeline.ucRefs τ sig) (StableHlo.after hostOps1 (Wout m c)) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v6) = res6 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      dsimp only [Tₙ]; unfold StableHlo.held
      iintro ⟨⟨Hh, -⟩, HSI⟩
      ihave Hr := (pointsTo_read_all (Pipeline.ucRefs τ sig) (fun b => ((c : Thread nD τ).1, b)) (StableHlo.after hostOps1 (Wout m c)) s') $$ [Hh HSI]
      · isplitl [Hh] <;> iassumption
      icases Hr with ⟨%hr, HSI⟩
      imodintro
      isplitr
      · ipureintro
        exact ⟨(hr _ (mem_uc main_v6 (by decide))).trans (tail_v6 m c),
          (hr _ (mem_uc main_arg0 (by decide))).trans (tail_arg0 m c),
          (hr _ (mem_uc main_arg1 (by decide))).trans (tail_arg1 m c),
          (hr _ (mem_uc main_arg2 (by decide))).trans (tail_arg2 m c),
          (hr _ (mem_uc main_arg3 (by decide))).trans (tail_arg3 m c),
          (hr _ (mem_uc main_arg4 (by decide))).trans (tail_arg4 m c)⟩
      iexact HSI)
    (hQ := fun _ h => h)

end Cert.Kernel.Hand

end
-- ==== Proof.KernelIdealBody.lean ====
/-
  The proof data of the kernel region and what its body leaves, for the idealized kernel read at any float
  instance.

  The region is a pipeline over a grid of 20 points. Point t sees two adjacent column blocks of the transposed
  input x^T (16 x 3200000): columns [160000 t, 160000 t + 80000) through window 0 and the next 80000 columns
  through window 1, both windows over ONE array; the two weight matrices (transposed) and the two bias columns
  whole through windows 2 to 5; and writes the 16 x 160000 output block of columns [160000 t, 160000 (t + 1))
  through window 6. The body computes, for each of the two input blocks X,
      relu (W2^T . relu (W1^T . X + b1) + b2)
  and stores the first result in the left half of the output block and the second in the right half.
-/
import proofs.«174670_g52252572123261_cont_8to1_c_723_16_alg».proof.Proof.Gen.KernelIdeal.Launch
import proofs.«174670_g52252572123261_cont_8to1_c_723_16_alg».proof.Proof.Gen.KernelIdeal.Skeleton
import proofs.«174670_g52252572123261_cont_8to1_c_723_16_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as a valuation; -/
abbrev V₀ (c : Dev nD) : Valuation τ sig (Elt F) := fun b => m ((c : Dev nD), b)

/-- and after the five host operations before the region (three transposes, two reshapes). -/
abbrev V0 (c : Dev nD) : Valuation τ sig (Elt F) := StableHlo.after hostOps0 (V₀ m c)

/-- The same, read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole 16 x 16 buffer; the whole 16 x 1 buffer; the whole 16 x 80000 buffer. -/
abbrev rW : Rect S16x16 := Rect.unit (s := S16x16) ![0, 0] S16x16.size inb_S16x16_S16x16_0_0
abbrev rb : Rect S16x1 := Rect.unit (s := S16x1) ![0, 0] S16x1.size inb_S16x1_S16x1_0_0
abbrev rX : Rect S16x80000 := Rect.unit (s := S16x80000) ![0, 0] S16x80000.size inb_S16x80000_S16x80000_0_0
/-- The left and the right half of the 16 x 160000 output buffer. -/
abbrev rL : Rect S16x160000 := Rect.unit (s := S16x160000) ![0, 0] S16x80000.size inb_S16x160000_S16x80000_0_0
abbrev rR : Rect S16x160000 := Rect.unit (s := S16x160000) ![0, 80000] S16x80000.size inb_S16x160000_S16x80000_0_80000

/-! ## What the body leaves in the output window's buffer -/

/-- The output buffer after the body, from the six input blocks: its two stores as pieces, last first — the right
    half from the second input block, the left half from the first. -/
def out6 (x0 x1 : Vec F S16x80000 .f32) (w1 : Vec F S16x16 .f32) (b1 : Vec F S16x1 .f32) (w2 : Vec F S16x16 .f32) (b2 : Vec F S16x1 .f32) :
    Vec F S16x160000 .f32 :=
  View.canon [⟨rR, k0_pay6 (View.ld w1 rW) (View.ld w2 rW) (View.ld b1 rb) (View.ld b2 rb) (View.ld x1 rX)⟩,
    ⟨rL, k0_pay5 (View.ld w1 rW) (View.ld w2 rW) (View.ld b1 rb) (View.ld b2 rb) (View.ld x0 rX)⟩]

/-! ## The pipeline's proof data -/

/-- The proof data on core `c`: the arrays as the region finds them; after the body at point `t` each input's
    buffer at its block and the output's at `out6` of the input blocks; the invariant the scoped rest and the
    generator register, untouched; nothing owed; the two windows on the one input array hold a half of it each, the
    others the whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = out6 (iblk m c 0 t) (iblk m c 1 t) (iblk m c 2 t) (iblk m c 3 t) (iblk m c 4 t) (iblk m c 5 t) := by
  dsimp only [dats]

theorem q0 (c : Dev nD) : (dats m 0 c).q 0 = fullShare.left := by dsimp only [dats]
theorem q1 (c : Dev nD) : (dats m 0 c).q 1 = fullShare.right := by dsimp only [dats]

/-! ## The arrays after the run -/

/-- The kernel's output array (the transposed result, 16 x 3200000) after the last write-back, as the pipeline
    library computes it from the proof data: block `t` of its columns overwritten by what point `t` left. -/
def out5 (c : Dev nD) : Buf (Elt F) ((c : Thread nD τ).loc main_v5) := (dats m 0 c).arrAt 6 cfg0.N

/-- The program's result: that array transposed back to 3200000 x 16 by the one host operation after the region. -/
def res6 (c : Dev nD) : Buf (Elt F) ((c : Thread nD τ).loc main_v6) :=
  transpose S3200000x16 [1, 0] (out5 m c) transposes_S16x3200000_S3200000x16_1_0

/-! ## What the body finds in the input windows' buffers -/

/-- An input window's current buffer holds the window's block at every point. The body leaves every input buffer as
    it found it, so at a point where the pipeline does not fetch (the block index has not moved since the point
    before) the buffer still holds the same block; where it fetches, the fetch of an uncut window writes the block.
    For the two input-block windows (fetched at every point) -/
theorem before_0 (c : Dev nD) (t : Fin cfg0.N) (d) : (dats m 0 c).before 0 t d = iblk m c 0 t := by
  refine ((dats m 0 c).before_in_eq_fetched 0 rfl (fun _ => rfl) (fun _ _ _ => rfl) (fun t => ?_) t d).trans ?_
  · rw [after0]; unfold Dat.blockOf iblk; rw [A_eq]
  · unfold Dat.fetched Dat.blockOf iblk; rw [A_eq]; rfl
theorem before_1 (c : Dev nD) (t : Fin cfg0.N) (d) : (dats m 0 c).before 1 t d = iblk m c 1 t := by
  refine ((dats m 0 c).before_in_eq_fetched 1 rfl (fun _ => rfl) (fun _ _ _ => rfl) (fun t => ?_) t d).trans ?_
  · rw [after1]; unfold Dat.blockOf iblk; rw [A_eq]
  · unfold Dat.fetched Dat.blockOf iblk; rw [A_eq]; rfl
/-- and for the weights and biases (fetched at the first point only). -/
theorem before_2 (c : Dev nD) (t : Fin cfg0.N) (d) : (dats m 0 c).before 2 t d = iblk m c 2 t := by
  refine ((dats m 0 c).before_in_eq_fetched 2 rfl (fun _ => rfl) (fun _ _ _ => rfl) (fun t => ?_) t d).trans ?_
  · rw [after2]; unfold Dat.blockOf iblk; rw [A_eq]
  · unfold Dat.fetched Dat.blockOf iblk; rw [A_eq]; rfl
theorem before_3 (c : Dev nD) (t : Fin cfg0.N) (d) : (dats m 0 c).before 3 t d = iblk m c 3 t := by
  refine ((dats m 0 c).before_in_eq_fetched 3 rfl (fun _ => rfl) (fun _ _ _ => rfl) (fun t => ?_) t d).trans ?_
  · rw [after3]; unfold Dat.blockOf iblk; rw [A_eq]
  · unfold Dat.fetched Dat.blockOf iblk; rw [A_eq]; rfl
theorem before_4 (c : Dev nD) (t : Fin cfg0.N) (d) : (dats m 0 c).before 4 t d = iblk m c 4 t := by
  refine ((dats m 0 c).before_in_eq_fetched 4 rfl (fun _ => rfl) (fun _ _ _ => rfl) (fun t => ?_) t d).trans ?_
  · rw [after4]; unfold Dat.blockOf iblk; rw [A_eq]
  · unfold Dat.fetched Dat.blockOf iblk; rw [A_eq]; rfl
theorem before_5 (c : Dev nD) (t : Fin cfg0.N) (d) : (dats m 0 c).before 5 t d = iblk m c 5 t := by
  refine ((dats m 0 c).before_in_eq_fetched 5 rfl (fun _ => rfl) (fun _ _ _ => rfl) (fun t => ?_) t d).trans ?_
  · rw [after5]; unfold Dat.blockOf iblk; rw [A_eq]
  · unfold Dat.fetched Dat.blockOf iblk; rw [A_eq]; rfl

/-! ## The two stores cover the output buffer -/

/-- Every index of the 16 x 160000 buffer lies in the right or in the left half: the two halves are the two blocks of
    80000 columns. -/
theorem cover_out (pR pL : Vec F S16x80000 .f32) (y : S16x160000.Idx) :
    ∃ pc ∈ ([⟨rR, pR⟩, ⟨rL, pL⟩] : List (View.Piece (Elt F) S16x160000 .f32)), y ∈ pc.1.set :=
  View.cover_of_tiled [⟨rR, pR⟩, ⟨rL, pL⟩] S16x80000.size (by rfl) y

/-! ## The body's triple -/

set_option maxHeartbeats 1000000 in
/-- The body's triple. On seven whole buffers, the six inputs' reading `x0 x1 w1 b1 w2 b2` and the output's reading
    anything, the body ends with the six inputs' as they were and the output's at `out6` of them. It loads the two
    weight matrices, the two biases and the first input block; loads the left half of the output buffer (a value it
    never uses); stores the first result over the left half; loads the second input block and the right half of the
    output buffer (unused again, and disjoint from the store before it); and stores the second result over the right
    half. The two stored halves cover the buffer (`cover_out`), so what it reads afterwards is the canon of the two
    pieces, whatever it held at the start. -/
theorem sound_kernel (c : Dev nD) (E : Set ℕ) (i : grid0.Coords)
    (arg1 : Memref sig .tc .vmem S16x80000 .f32) (harg1 : arg1.IsWhole) (arg2 : Memref sig .tc .vmem S16x80000 .f32) (harg2 : arg2.IsWhole)
    (arg3 : Memref sig .tc .vmem S16x16 .f32) (harg3 : arg3.IsWhole) (arg4 : Memref sig .tc .vmem S16x1 .f32) (harg4 : arg4.IsWhole)
    (arg5 : Memref sig .tc .vmem S16x16 .f32) (harg5 : arg5.IsWhole) (arg6 : Memref sig .tc .vmem S16x1 .f32) (harg6 : arg6.IsWhole)
    (arg7 : Memref sig .tc .vmem S16x160000 .f32) (harg7 : arg7.IsWhole)
    (x0 x1 : Vec F S16x80000 .f32) (w1 : Vec F S16x16 .f32) (b1 : Vec F S16x1 .f32) (w2 : Vec F S16x16 .f32) (b2 : Vec F S16x1 .f32)
    (K : PUnit → sProp 𝕄) :
    iprop(owns (c : Thread nD τ) arg1 fullShare x0 ∗ owns (c : Thread nD τ) arg2 fullShare x1
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d)
        ∗ (iprop(owns (c : Thread nD τ) arg1 fullShare x0 ∗ owns (c : Thread nD τ) arg2 fullShare x1
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (out6 x0 x1 w1 b1 w2 b2)) -∗ K ⟨⟩))
      ⊢ wp frame (wpE (defs₀ (F := F)) Variants.none c none) E
          (cc0__mlp_body i arg1 harg1 arg2 harg2 arg3 harg3 arg4 harg4 arg5 harg5 arg6 harg6 arg7 harg7) K := by
  simp only [cc0__mlp_body_eq_skeleton]; unfold cc0__mlp_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

/-! ## The body at a point of the grid -/

/-- What the pipeline hands the body at point `t`: the invariant, what the core owes, and each of the seven windows'
    current buffer at what it holds then. -/
def atEntry (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back: the same at the next point, each buffer at what the proof data say the body leaves. -/
def atExit (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at point `t`. Each input buffer holds its window's block (`before_0` … `before_5`) and the output
    buffer holds something, so the body's triple applies at the six blocks; the invariant and what the core owes are
    not touched by the body and are the same at the next point. -/
theorem body_at (c : Dev nD) (t : Fin cfg0.N) :
    atEntry m c t ⊢ wp frame (wpE (defs₀ (F := F)) Variants.none c none) Set.univ (bodyAt0 t) (fun _ => atExit m c t) := by
  unfold atEntry atExit bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The body obligation -/

/-- The library's body obligation, at every point. -/
theorem body_obligation (c : Dev nD) : BodyObligation (dats (F := F) m 0 c) (defs₀ (F := F)) Variants.none () Set.univ := fun t => by
  rw [bigSep_W0, bigSep_W0]
  exact body_at m c t

end Cert.KernelIdeal.Hand

end
-- ==== Proof.KernelIdealTail.lean ====
/-
  The buffers after the region and after the one host operation that follows it.

  When the region ends every buffer holds what it held at the region's entry except the region's output array,
  which holds what the pipeline wrote back. The host then transposes that array into the result buffer. No host
  operation, before or after the region, writes an argument buffer, so the five arguments end as launched.
-/
import proofs.«174670_g52252572123261_cont_8to1_c_723_16_alg».proof.Proof.KernelIdealBody
import Idealize.ShloMosaic.Lib.StableHlo.Run

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- The valuation when the region ends: as at its entry, with the output array at what the pipeline wrote back. -/
def Wout (c : Dev nD) : Valuation τ sig (Elt F) :=
  Function.update (V0 m c) (Proc.devRef .tc main_v5) (out5 m c)

/-- At the output array the end-of-region valuation is what the pipeline wrote back. -/
theorem Wout_v5 (c : Dev nD) : Wout m c (Proc.devRef .tc main_v5) = out5 m c := by
  unfold Wout
  exact Function.update_self _ _ _

/-- At every other buffer it is the valuation at the region's entry. -/
theorem Wout_of_ne (c : Dev nD) (b : DevRef τ sig) (h : b ≠ Proc.devRef .tc main_v5) : Wout m c b = V0 m c b := by
  unfold Wout
  exact Function.update_of_ne h _ _

/-- After the tail's transpose the result buffer holds `res6`. -/
theorem tail_v6 (c : Dev nD) : StableHlo.after hostOps1 (Wout m c) (Proc.devRef .tc main_v6) = res6 m c := by
  after_results
  rw [Wout_v5]
  rfl

/-- The five arguments after the tail are the launch memory's. -/
theorem tail_arg0 (c : Dev nD) :
    StableHlo.after hostOps1 (Wout m c) (Proc.devRef .tc main_arg0) = m ((c.tc : Thread nD τ).loc main_arg0) := by
  -- the tail's transpose writes only the result buffer; an argument is not the output array, so the region left it
  -- as at its entry; and none of the five operations before the region writes an argument
  after_results
  rw [Wout_of_ne m c _ (by decide)]
  show StableHlo.after hostOps0 _ (Proc.devRef .tc main_arg0) = _
  after_results
theorem tail_arg1 (c : Dev nD) :
    StableHlo.after hostOps1 (Wout m c) (Proc.devRef .tc main_arg1) = m ((c.tc : Thread nD τ).loc main_arg1) := by
  after_results
  rw [Wout_of_ne m c _ (by decide)]
  show StableHlo.after hostOps0 _ (Proc.devRef .tc main_arg1) = _
  after_results
theorem tail_arg2 (c : Dev nD) :
    StableHlo.after hostOps1 (Wout m c) (Proc.devRef .tc main_arg2) = m ((c.tc : Thread nD τ).loc main_arg2) := by
  after_results
  rw [Wout_of_ne m c _ (by decide)]
  show StableHlo.after hostOps0 _ (Proc.devRef .tc main_arg2) = _
  after_results
theorem tail_arg3 (c : Dev nD) :
    StableHlo.after hostOps1 (Wout m c) (Proc.devRef .tc main_arg3) = m ((c.tc : Thread nD τ).loc main_arg3) := by
  after_results
  rw [Wout_of_ne m c _ (by decide)]
  show StableHlo.after hostOps0 _ (Proc.devRef .tc main_arg3) = _
  after_results
theorem tail_arg4 (c : Dev nD) :
    StableHlo.after hostOps1 (Wout m c) (Proc.devRef .tc main_arg4) = m ((c.tc : Thread nD τ).loc main_arg4) := by
  after_results
  rw [Wout_of_ne m c _ (by decide)]
  show StableHlo.after hostOps0 _ (Proc.devRef .tc main_arg4) = _
  after_results

end Cert.KernelIdeal.Hand

end
-- ==== Proof.KernelIdealRun.lean ====
/-
  The run of the idealized kernel's @main, at any float instance: five host operations (the input and the two
  weight matrices transposed, the two biases reshaped to columns), the kernel region, one host operation (the
  region's output transposed back). From any memory with every semaphore counter at zero every weakly fair execution
  terminates, nothing faulting; the result buffer ends at the transpose of what the pipeline wrote back, and the five
  argument buffers end as they were.

  @main is read as three segments. Between two segments a core holds its unscoped buffers whole at a valuation, its
  generator register at some state, and owes nothing. The first segment takes the launch contents to what the five
  host operations leave. The region is entered by sorting the six buffers behind the seven windows' arrays out of
  the unscoped ones: the transposed input is read through two windows, so its full share is dealt as its left half
  to the first and its right half to the second; the other five arrays go whole to their windows; the five arguments
  and the result buffer pass the region by. At the exit each input array is as at the entry (an input array is never
  written), so the two halves recombine, and the output array holds what the pipeline wrote back: the unscoped
  buffers are whole again, at the entry valuation rewritten at the output array. The last segment transposes that
  array into the result buffer; reading the last valuation against a final state gives the claim.
-/
import proofs.«174670_g52252572123261_cont_8to1_c_723_16_alg».proof.Proof.KernelIdealBody
import proofs.«174670_g52252572123261_cont_8to1_c_723_16_alg».proof.Proof.KernelIdealTail
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The windows' shares -/

/-- A whole buffer held at the full share is held at its two halves, and back. -/
theorem pt_halves (ℓ : Loc nD τ sig) (f : Buf (Elt F) ℓ) :
    ((ℓ ↦{fullShare} f) : sProp 𝕄) = iprop((ℓ ↦{fullShare.left} f) ∗ (ℓ ↦{fullShare.right} f)) :=
  BI.Entails.antisymm (pointsTo_share (PosShare.mem_left_op_right fullShare)).1 (pointsTo_share (PosShare.mem_left_op_right fullShare)).2

/-- The two windows on the transposed input hold a half of it each; every other window holds its array whole (the
    four parameter windows by the proof data, the output window because it is one). -/
theorem share0 (c : Dev nD) : (dats m 0 c).share 0 = fullShare.left := by
  unfold Dat.share; rw [if_neg (by decide)]; exact q0 m c
theorem share1 (c : Dev nD) : (dats m 0 c).share 1 = fullShare.right := by
  unfold Dat.share; rw [if_neg (by decide)]; exact q1 m c
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_neg (by decide)]; dsimp only [dats]
theorem share6 (c : Dev nD) : (dats m 0 c).share 6 = fullShare := by
  unfold Dat.share; rw [if_pos (by decide)]

/-! ## The seven windows' arrays and the six buffers behind them -/

/-- The windows' arrays, each read off one valuation of the buffers, are the six distinct buffers behind them whole
    at that valuation: windows 0 and 1 hold the two halves of the one input buffer at the same contents, which make
    it whole; each other window holds its own buffer whole. -/
theorem arrays_eq_arrBufs (c : Dev nD) (Wv : (b : Ref sig .tc) → Buf (Elt F) ((c : Thread nD τ).loc b)) :
    ((dats m 0 c).arrays (fun w => Wv (Pipeline.arrRef spec0 w)) : sProp 𝕄) = Pipeline.arrBufs spec0 c Wv := by
  unfold Dat.arrays Pipeline.arrBufs
  rw [bigSep_W0, bigSep_eq_bigSepL_of_eq [main_v0, main_v1, main_v3, main_v2, main_v4, main_v5] (by decide) (by decide)]
  -- windows 0 and 1 are on one array, so one wholeness fact serves both
  rw [(arr_whole0 0).set_eq_univ, (arr_whole0 2).set_eq_univ, (arr_whole0 3).set_eq_univ,
    (arr_whole0 4).set_eq_univ, (arr_whole0 5).set_eq_univ, (arr_whole0 6).set_eq_univ,
    share0, share1, share2, share3, share4, share5, share6]
  simp only [bigSepL_cons_cons, bigSepL_singleton]
  rw [pt_halves ((c : Thread nD τ).loc main_v0) (Wv main_v0)]
  exact BI.Entails.antisymm Idealize.SL.BI.sep_assoc' Idealize.SL.BI.sep_assoc

/-- A core's unscoped buffers at a valuation: the buffers behind the windows' arrays and the rest. -/
theorem ub_split (c : Dev nD) (Wv : (b : Ref sig .tc) → Buf (Elt F) ((c : Thread nD τ).loc b)) :
    (unscopedBufs c Wv : sProp 𝕄) = iprop(Pipeline.arrBufs spec0 c Wv ∗ Pipeline.unscopedRest spec0 c Wv) :=
  Pipeline.unscopedBufs_split₀ cfgs 0 winFacts₀0.arr_unscoped c Wv

/-- The unscoped buffers held at a valuation are the pipeline's arrays read off it and the rest: what the region's
    entry takes apart and its exit puts together. -/
theorem held_split (c : Dev nD) (Wv : Valuation τ sig (Elt F)) :
    (StableHlo.held (c : Thread nD τ) (Pipeline.ucRefs τ sig) Wv : sProp 𝕄)
      = iprop((dats m 0 c).arrays (fun w => Wv (Proc.devRef .tc (Pipeline.arrRef spec0 w)))
          ∗ Pipeline.unscopedRest spec0 c (fun b => Wv (Proc.devRef .tc b))) := by
  rw [← Pipeline.unscopedBufs_held c Wv, ub_split, ← arrays_eq_arrBufs m c (fun b => Wv (Proc.devRef .tc b))]

/-! ## The arrays' contents at the region's two ends -/

/-- At the entry the arrays are read off the valuation the five host operations left. -/
theorem arrAt_entry (c : Dev nD) :
    ((dats m 0 c).arrAt · 0) = fun w => V0 m c (Proc.devRef .tc (Pipeline.arrRef spec0 w)) :=
  funext fun w => A_eq m c w

/-- At the exit they are read off that valuation rewritten at the output array: an input array is never written,
    and the output array's final contents are `out5` by definition. -/
theorem arrAt_exit (c : Dev nD) : ∀ w : Fin cfg0.W,
    (dats m 0 c).arrAt w cfg0.N = Wout m c (Proc.devRef .tc (Pipeline.arrRef spec0 w))
  | ⟨0, _⟩ => ((dats m 0 c).arrAt_in 0 rfl _).trans ((A_eq m c 0).trans (Wout_of_ne m c _ (StableHlo.devRef_ne_of_ne (by decide))).symm)
  | ⟨1, _⟩ => ((dats m 0 c).arrAt_in 1 rfl _).trans ((A_eq m c 1).trans (Wout_of_ne m c _ (StableHlo.devRef_ne_of_ne (by decide))).symm)
  | ⟨2, _⟩ => ((dats m 0 c).arrAt_in 2 rfl _).trans ((A_eq m c 2).trans (Wout_of_ne m c _ (StableHlo.devRef_ne_of_ne (by decide))).symm)
  | ⟨3, _⟩ => ((dats m 0 c).arrAt_in 3 rfl _).trans ((A_eq m c 3).trans (Wout_of_ne m c _ (StableHlo.devRef_ne_of_ne (by decide))).symm)
  | ⟨4, _⟩ => ((dats m 0 c).arrAt_in 4 rfl _).trans ((A_eq m c 4).trans (Wout_of_ne m c _ (StableHlo.devRef_ne_of_ne (by decide))).symm)
  | ⟨5, _⟩ => ((dats m 0 c).arrAt_in 5 rfl _).trans ((A_eq m c 5).trans (Wout_of_ne m c _ (StableHlo.devRef_ne_of_ne (by decide))).symm)
  | ⟨6, _⟩ => (Wout_v5 m c).symm
  | ⟨_ + 7, h⟩ => absurd h (Nat.not_lt.2 (Nat.le_add_left _ _))

/-- Off the windows' arrays the two valuations agree: the buffers that pass the region by are the same at both. -/
theorem rest_Wout (c : Dev nD) :
    (Pipeline.unscopedRest spec0 c (fun b => Wout m c (Proc.devRef .tc b)) : sProp 𝕄) = Pipeline.unscopedRest spec0 c (V m c) := by
  unfold Pipeline.unscopedRest
  exact bigSep_congr fun b hb => by
    beta_reduce
    rw [Wout_of_ne m c _ (StableHlo.devRef_ne_of_ne fun e =>
      (Finset.mem_sdiff.mp hb).2 (Finset.mem_image.mpr ⟨6, Finset.mem_univ _, e.symm⟩))]

/-! ## The launch's parameters -/

/-- No core owes anything at launch: no level is assigned. -/
abbrev L : GSem nD τ sig → Finset Unit := fun _ => ∅
abbrev lv : GSem nD τ sig → Unit → ℕ := fun _ _ => 0
/-- The prefetched tables' admissible contents: there is no table. -/
abbrev adm : (p : Fin 1) → (pcfgs (F := F) p).Adm := fun p => (cfgs p).toPCfg_adm
abbrev 𝒱₀ : Variants := Variants.none
/-- The algebra of the staging cells' rounds is the whole of the certificate's. -/
abbrev EP : Emb (UR sig nD τ) (MT nD τ sig Unit (Elt F) ℕ (UR sig nD τ) ℕ) := emb₁

/-- What rides beside the buffers from segment to segment: the generator register at some state, and the core owing
    nothing. -/
abbrev R (c : Dev nD) : sProp 𝕄 :=
  iprop((∃ r, prngReg c r) ∗ ∃ W, owes (c : Thread nD τ) (0 : CellTallies nD τ sig Unit) W)

/-! ## The two host segments -/

/-- No host operation allocates. -/
theorem ops_fresh0 : ∀ op ∈ (hostOps0 : List (HloOp τ sig (Elt F))), op.fresh = ∅ := by
  intro _ h; (repeat (cases h with | head => rfl | tail _ h => ?_)); exact nomatch h
theorem ops_fresh1 : ∀ op ∈ (hostOps1 : List (HloOp τ sig (Elt F))), op.fresh = ∅ := by
  intro _ h; (repeat (cases h with | head => rfl | tail _ h => ?_)); exact nomatch h

/-- The five host operations before the region, over the unscoped buffers from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) ops_fresh0 (V₀ m) R

/-- The one host operation after the region, over the unscoped buffers from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) ops_fresh1 (Wout m) R

/-! ## The region -/

/-- The pipeline prefetches no table: it holds none. -/
theorem prefHeld0 (c : Dev nD) (q) (pf) :
    (Pipeline.prefHeld (Ix := Unit) (Name := ℕ) (U := UR sig nD τ) (Lvl := ℕ) (Val := Elt F) (pcfgs (F := F) 0).pre c q pf : sProp 𝕄) = BI.emp := by
  unfold Pipeline.prefHeld; rw [show (Finset.univ : Finset (Fin 0)) = ∅ from rfl, BI.bigSep_empty]

/-- The core owing nothing is the pipeline's account of what it owes at any point, and back. -/
theorem owesAt_intro (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin
  rw [show (dats m 0 c).owed t = 0 from rfl]
  iintro ⟨%W, HO⟩; iexists W; isplitr; · ipureintro; exact fun _ _ => Or.inl trivial
  iexact HO
theorem owesAt_elim (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  rw [show (dats m 0 c).owed t = 0 from rfl]
  iintro ⟨%W, -, HO⟩; iexists W; iexact HO

set_option backward.isDefEq.respectTransparency.types false in
/-- The region: entered from what the host operations left, the six array buffers going to the seven windows (the
    input buffer's two halves to the two windows on it), the generator register to the invariant, the arguments and
    the result buffer passing by; left with the output array at what the pipeline wrote back and everything else as
    it was. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Wout m c) ∗ R c)
  X c := iprop(∃ r, prngReg c r)
  Y c := iprop(∃ r, prngReg c r)
  Z c := Pipeline.unscopedRest spec0 c (V m c)
  hentry c := by
    rw [held_split m c (V0 m c), Pipeline.ownSems0_none, prefHeld0, arrAt_entry]
    iintro ⟨⟨⟨Ha, Hr⟩, Hp, HO⟩, -, -⟩
    imodintro
    isplitl [Ha]; · iexact Ha
    isplitr; · iempintro
    isplitl [HO]; · iapply (owesAt_intro m c 0); iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr]; · iexact Hr
    iexact Hp
  hout c := by
    rw [show (dats m 0 c).Φ (Fin.last _) = Pipeline.ΦA spec0 c from rfl, Pipeline.ownSems0_none]; unfold Pipeline.ΦA
    iintro ⟨Hr, Hp⟩
    isplitl [Hp]; · iexact Hp
    isplitr; · iempintro
    iexact Hr
  hexit c := by
    rw [held_split m c (Wout m c), rest_Wout,
      show ((dats m 0 c).arrAt · cfg0.N) = (fun w => Wout m c (Proc.devRef .tc (Pipeline.arrRef spec0 w))) from funext (arrAt_exit m c)]
    iintro ⟨Ha, HO, Hp, Hr⟩
    imodintro
    isplitl [Ha Hr]
    · isplitl [Ha]; · iexact Ha
      iexact Hr
    isplitl [Hp]; · iexact Hp
    iapply (owesAt_elim m c _); iexact HO

/-! ## @main as the three -/

/-- @main as the list of the three segments. -/
abbrev segs : List (Pipeline.Seg (pcfgs (F := F)) adm (dats m) () defs₀ 𝒱₀ L lv) :=
  [.host (seg0 m), .region (reg0 m), .host (seg1 m)]

/-- The last thread state: the unscoped buffers after the last host operation, the generator register. -/
abbrev Tₙ (c : Dev nD) : sProp 𝕄 :=
  iprop(StableHlo.held (c : Thread nD τ) (Pipeline.ucRefs τ sig) (StableHlo.after hostOps1 (Wout m c)) ∗ ∃ r, prngReg c r)

/-- An unscoped TensorCore reference is among the buffers the host operations run within. -/
theorem mem_uc (b : Ref sig .tc) (h : (Proc.devRef (τ := τ) .tc b).isScoped = false) :
    Proc.devRef .tc b ∈ Pipeline.ucRefs τ sig :=
  Finset.mem_filter.mpr ⟨StableHlo.devRef_mem_tcRefs b, by rw [h]; exact Bool.false_ne_true⟩

end Run

open Run

set_option backward.isDefEq.respectTransparency.types false in
/-- Every weakly fair execution of @main terminates without a fault; the result buffer ends at `res6`, the five
    argument buffers as launched. -/
theorem run_main : θ_run defs (onTc (τ := τ) (main (F := F))) ⟨m, fun _ => 0, ρ⟩ (fun r => ∀ c : Dev nD,
      r.2.mem ((c.tc : Thread nD τ).loc main_v6) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := by
      refine ⟨fun _ => .rfl, fun _ => .rfl, fun _ => .rfl, fun c => ?_⟩
      show iprop(StableHlo.held (c : Thread nD τ) (Pipeline.ucRefs τ sig) (StableHlo.after hostOps1 (Wout m c)) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v6) = res6 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      dsimp only [Tₙ]; unfold StableHlo.held
      iintro ⟨⟨Hh, -⟩, HSI⟩
      ihave Hr := (pointsTo_read_all (Pipeline.ucRefs τ sig) (fun b => ((c : Thread nD τ).1, b)) (StableHlo.after hostOps1 (Wout m c)) s') $$ [Hh HSI]
      · isplitl [Hh] <;> iassumption
      icases Hr with ⟨%hr, HSI⟩
      imodintro
      isplitr
      · ipureintro
        exact ⟨(hr _ (mem_uc main_v6 (by decide))).trans (tail_v6 m c),
          (hr _ (mem_uc main_arg0 (by decide))).trans (tail_arg0 m c),
          (hr _ (mem_uc main_arg1 (by decide))).trans (tail_arg1 m c),
          (hr _ (mem_uc main_arg2 (by decide))).trans (tail_arg2 m c),
          (hr _ (mem_uc main_arg3 (by decide))).trans (tail_arg3 m c),
          (hr _ (mem_uc main_arg4 (by decide))).trans (tail_arg4 m c)⟩
      iexact HSI)
    (hQ := fun _ h => h)

end Cert.KernelIdeal.Hand

end
-- ==== Proof.KernelIdealEntry.lean ====
/-
  The arrays the region is entered with, and the program's result, read at an index in terms of the launch memory.

  Before the region the host transposes the input x (3200000 x 16) and the two weight matrices (16 x 16), and
  reshapes the two bias vectors (16) to columns (16 x 1); after it the host transposes the region's output
  (16 x 3200000) back. A transpose swaps the two coordinates of an index; the reshape of a vector to a column reads
  the vector at the row.
-/
import proofs.«174670_g52252572123261_cont_8to1_c_723_16_alg».proof.Proof.KernelIdealBody
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- Entry `j` of a vector of 16 and entry `(j, z)` of a 16 x 1 column have the same row-major position
    (`j = j * 1 + z` with `z = 0`). -/
theorem rowMajor_col (j : Fin 16) (z : Fin 1) :
    ((⟨1, ![16]⟩ : Shape).rowMajor (ix1 j)).val = ((⟨2, ![16, 1]⟩ : Shape).rowMajor (ix2 j z)).val := by
  have hz : z.val = 0 := by omega
  rw [Shape.rowMajor_val_two, Shape.rowMajor_val_one]
  show j.val = j.val * 1 + z.val
  omega

/-! ## What the five host operations before the region leave in the arrays they write

Each of the five writes one array from one launch argument and none of them reads an array another one wrote, so each
written array is its operation applied to the launch memory. -/

/-- The region's input array is the launch input transposed. -/
theorem V_v0_eq (c : Dev nD) :
    (V m c main_v0 : S16x3200000.Idx → Elt F .f32) =
      transpose S16x3200000 [1, 0] (m ((c.tc : Thread nD τ).loc main_arg0)) transposes_S3200000x16_S16x3200000_1_0 := by
  show StableHlo.after hostOps0 _ (Proc.devRef .tc main_v0) = _
  after_results

/-- The first weight array is the first launch weight matrix transposed. -/
theorem V_v1_eq (c : Dev nD) :
    (V m c main_v1 : S16x16.Idx → Elt F .f32) =
      transpose S16x16 [1, 0] (m ((c.tc : Thread nD τ).loc main_arg1)) transposes_S16x16_S16x16_1_0 := by
  show StableHlo.after hostOps0 _ (Proc.devRef .tc main_v1) = _
  after_results

/-- The second weight array is the second launch weight matrix transposed. -/
theorem V_v2_eq (c : Dev nD) :
    (V m c main_v2 : S16x16.Idx → Elt F .f32) =
      transpose S16x16 [1, 0] (m ((c.tc : Thread nD τ).loc main_arg3)) transposes_S16x16_S16x16_1_0 := by
  show StableHlo.after hostOps0 _ (Proc.devRef .tc main_v2) = _
  after_results

/-- The first bias column is the first launch bias vector, in row-major order at the shape 16 x 1. -/
theorem V_v3_eq (c : Dev nD) :
    (V m c main_v3 : S16x1.Idx → Elt F .f32) =
      shapeCast S16x1 (m ((c.tc : Thread nD τ).loc main_arg2)) shapeCasts_S16_S16x1 := by
  show StableHlo.after hostOps0 _ (Proc.devRef .tc main_v3) = _
  after_results
  rfl

/-- The second bias column is the second launch bias vector, in row-major order at the shape 16 x 1. -/
theorem V_v4_eq (c : Dev nD) :
    (V m c main_v4 : S16x1.Idx → Elt F .f32) =
      shapeCast S16x1 (m ((c.tc : Thread nD τ).loc main_arg4)) shapeCasts_S16_S16x1 := by
  show StableHlo.after hostOps0 _ (Proc.devRef .tc main_v4) = _
  after_results
  rfl

/-! ## The same arrays read at an index -/

/-- The transposed input at (k, e) is the input at (e, k). -/
theorem V_v0_apply (c : Dev nD) (k : Fin 16) (e : Fin 3200000) :
    V m c main_v0 (ix2 k e) = m ((c.tc : Thread nD τ).loc main_arg0) (ix2 e k) :=
  (congrFun (V_v0_eq m c) (ix2 k e)).trans (transpose_ix2_apply _ _ k e)

/-- The first weight matrix transposed, at (j, k), is the matrix at (k, j). -/
theorem V_v1_apply (c : Dev nD) (j k : Fin 16) :
    V m c main_v1 (ix2 j k) = m ((c.tc : Thread nD τ).loc main_arg1) (ix2 k j) :=
  (congrFun (V_v1_eq m c) (ix2 j k)).trans (transpose_ix2_apply _ _ j k)

/-- The second weight matrix transposed, at (j, k), is the matrix at (k, j). -/
theorem V_v2_apply (c : Dev nD) (j k : Fin 16) :
    V m c main_v2 (ix2 j k) = m ((c.tc : Thread nD τ).loc main_arg3) (ix2 k j) :=
  (congrFun (V_v2_eq m c) (ix2 j k)).trans (transpose_ix2_apply _ _ j k)

/-- The first bias as a column, at row j, is the bias at j. -/
theorem V_v3_apply (c : Dev nD) (j : Fin 16) (z : Fin 1) :
    V m c main_v3 (ix2 j z) = m ((c.tc : Thread nD τ).loc main_arg2) (ix1 j) :=
  (congrFun (V_v3_eq m c) (ix2 j z)).trans
    (shapeCast_apply (s := S16) (t := S16x1) _ shapeCasts_S16_S16x1 (ix2 j z) (ix1 j) (rowMajor_col j z))

/-- The second bias as a column, at row j, is the bias at j. -/
theorem V_v4_apply (c : Dev nD) (j : Fin 16) (z : Fin 1) :
    V m c main_v4 (ix2 j z) = m ((c.tc : Thread nD τ).loc main_arg4) (ix1 j) :=
  (congrFun (V_v4_eq m c) (ix2 j z)).trans
    (shapeCast_apply (s := S16) (t := S16x1) _ shapeCasts_S16_S16x1 (ix2 j z) (ix1 j) (rowMajor_col j z))

/-- The result at (e, j) is the region's output array at (j, e). -/
theorem res6_apply (c : Dev nD) (e : Fin 3200000) (j : Fin 16) :
    res6 m c (ix2 e j) = out5 m c (ix2 j e) := by
  unfold res6
  exact transpose_ix2_apply _ _ e j

end Cert.KernelIdeal.Hand

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Spec.lean ====
/-
  The function both programs compute, index by index, at the ideal instance (floats are extended reals).

  For an edge feature matrix x (3200000 x 16), weights W1, W2 (16 x 16) and biases b1, b2 (16):
      hidden e j = max (sum_k x[e,k] * W1[k,j] + b1[j]) 0
      mlp   e j = max (sum_k hidden e k * W2[k,j] + b2[j]) 0
  The sums run over the 16 input units, in extended-real arithmetic; the products' factors are written in the
  order of x . W (row of the left operand times column of the right).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The literal shapes: the edge-by-feature matrix, a weight matrix, a bias vector. -/
abbrev SEx16 : Shape := ⟨2, ![3200000, 16]⟩
abbrev SWt : Shape := ⟨2, ![16, 16]⟩
abbrev SBias : Shape := ⟨1, ![16]⟩

/-- The zero every relu compares with: the float word of all zero bits, read at the ideal instance. -/
abbrev zero : Elt Ideal .f32 := FloatOps.ofBits (F := Ideal) .f32 0x00000000#32

/-- The hidden layer at edge `e`, unit `j`. -/
def hidden (x : (⟨SEx16, .f32⟩ : BufTy).Contents (Elt Ideal)) (W1 : (⟨SWt, .f32⟩ : BufTy).Contents (Elt Ideal))
    (b1 : (⟨SBias, .f32⟩ : BufTy).Contents (Elt Ideal)) (e : Fin 3200000) (j : Fin 16) : Elt Ideal .f32 :=
  FloatOps.maximumf (F := Ideal) (φ := .f32)
    (FloatOps.addf (F := Ideal) (φ := .f32) ((∑ k : Fin 16, x (ix2 e k) * W1 (ix2 k j) : Ideal .f32)) (b1 (ix1 j))) zero

/-- The two-layer perceptron's output, as one function of the five argument arrays. -/
def mlp (x : (⟨SEx16, .f32⟩ : BufTy).Contents (Elt Ideal)) (W1 : (⟨SWt, .f32⟩ : BufTy).Contents (Elt Ideal))
    (b1 : (⟨SBias, .f32⟩ : BufTy).Contents (Elt Ideal)) (W2 : (⟨SWt, .f32⟩ : BufTy).Contents (Elt Ideal))
    (b2 : (⟨SBias, .f32⟩ : BufTy).Contents (Elt Ideal)) : (⟨SEx16, .f32⟩ : BufTy).Contents (Elt Ideal) :=
  fun i => FloatOps.maximumf (F := Ideal) (φ := .f32)
    (FloatOps.addf (F := Ideal) (φ := .f32) ((∑ k : Fin 16, hidden x W1 b1 (i 0) k * W2 (ix2 k (i 1)) : Ideal .f32)) (b2 (ix1 (i 1)))) zero

end Cert.Spec

end
-- ==== Proof.KernelIdealValue.lean ====
/-
  The idealized kernel's result, index by index: the transposed output array the pipeline wrote back, transposed
  again by the host, is the two-layer perceptron of the specification at the launch arguments.

  The body applies to a 16 x 80000 block X of the transposed input the two layers relu (A . X + b): a 16 x 16 matrix
  times the block, a 16 x 1 column added along every row, the maximum with zero. At entry (p, q) one layer is
      max (∑_r A[p, r] * X[r, q] + b[p]) 0,
  so two layers at (p, q) depend on the block through its column q alone. The body stores the two layers of the
  first input block in the left half of the 16 x 160000 output buffer and those of the second in the right half; at
  point t the first block is columns [160000 t, 160000 t + 80000) of the transposed input and the second the next
  80000, and the buffer is written back over columns [160000 t, 160000 (t + 1)) of the output array. Hence what
  point t writes back is its block of ONE function of the whole arrays — two layers over the transposed input, entry
  by entry — and, the 20 blocks tiling the 3200000 columns, the output array ends at that function. The arrays the
  region is entered with are the transposes of the input and of the two weight matrices and the two biases as
  columns; reading them at an index turns the two layers into the specification's sums with the two factors of each
  product in the other order, which is commutativity of the product on the extended reals and nothing more.
-/
import proofs.«174670_g52252572123261_cont_8to1_c_723_16_alg».proof.Proof.KernelIdealBody
import proofs.«174670_g52252572123261_cont_8to1_c_723_16_alg».proof.Proof.KernelIdealEntry
import proofs.«174670_g52252572123261_cont_8to1_c_723_16_alg».proof.Proof.LibDotPlain
import proofs.«174670_g52252572123261_cont_8to1_c_723_16_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One layer at an entry -/

/-- A 16 x 1 column broadcast along a row's 80000 positions reads, at (p, q), the column's entry of row p. -/
theorem column_broadcast_apply (v : FVec Ideal S16x1 .f32) (p : Fin 16) (q : Fin 80000) :
    broadcastTo S16x80000 v Facts₀.broadcasts_S16x1_S16x80000 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- One layer, relu (A . X + b) with A a 16 x 16 matrix, b a column and X an array of 16 rows, at entry (p, q):
    the maximum with zero of row p of A times column q of X, plus entry p of b. -/
def layerAt {N : Nat} (A : FVec Ideal S16x16 .f32) (b : FVec Ideal S16x1 .f32) (X : FVec Ideal ⟨2, ![16, N]⟩ .f32)
    (p : Fin 16) (q : Fin N) : Ideal .f32 :=
  FloatOps.maximumf (F := Ideal) (φ := .f32)
    (FloatOps.addf (F := Ideal) (φ := .f32) (∑ r : Fin 16, A (ix2 p r) * X (ix2 r q) : Ideal .f32) (b (ix2 p (0 : Fin 1)))) Cert.Spec.zero

/-- Two layers at entry (p, q): row p of the second matrix against column q of the first layer's output. -/
def twoLayersAt {N : Nat} (w1 w2 : FVec Ideal S16x16 .f32) (b1 b2 : FVec Ideal S16x1 .f32) (X : FVec Ideal ⟨2, ![16, N]⟩ .f32)
    (p : Fin 16) (q : Fin N) : Ideal .f32 :=
  FloatOps.maximumf (F := Ideal) (φ := .f32)
    (FloatOps.addf (F := Ideal) (φ := .f32) (∑ k : Fin 16, w2 (ix2 p k) * layerAt w1 b1 X k q : Ideal .f32) (b2 (ix2 p (0 : Fin 1)))) Cert.Spec.zero

/-- Two layers at an entry depend only on the matrices' and columns' entries and on ONE column of the array: the
    same entries, and column q of X equal to column q' of Y, give the same value. -/
theorem twoLayersAt_congr {N N' : Nat} {w1 w1' w2 w2' : FVec Ideal S16x16 .f32} {b1 b1' b2 b2' : FVec Ideal S16x1 .f32}
    {X : FVec Ideal ⟨2, ![16, N]⟩ .f32} {Y : FVec Ideal ⟨2, ![16, N']⟩ .f32} {p p' : Fin 16} {q : Fin N} {q' : Fin N'}
    (hw1 : ∀ a b : Fin 16, w1 (ix2 a b) = w1' (ix2 a b)) (hw2 : ∀ a b : Fin 16, w2 (ix2 a b) = w2' (ix2 a b))
    (hb1 : ∀ a : Fin 16, b1 (ix2 a (0 : Fin 1)) = b1' (ix2 a (0 : Fin 1))) (hb2 : ∀ a : Fin 16, b2 (ix2 a (0 : Fin 1)) = b2' (ix2 a (0 : Fin 1)))
    (hp : p = p') (hX : ∀ r : Fin 16, X (ix2 r q) = Y (ix2 r q')) :
    twoLayersAt w1 w2 b1 b2 X p q = twoLayersAt w1' w2' b1' b2' Y p' q' := by
  subst hp
  unfold twoLayersAt layerAt
  simp only [hw1, hw2, hb1, hb2, hX]

/-- The body's operations of one layer (the product into the zero array, the column broadcast added, the maximum
    with the zero splat), read at entry (p, q). -/
theorem layer_apply (A : FVec Ideal S16x16 .f32) (b : FVec Ideal S16x1 .f32) (X : FVec Ideal S16x80000 .f32) (p : Fin 16) (q : Fin 80000) :
    maximumf (addf (matmul dot_S16x16_S16x80000_S16x80000_1_0_0_1_n_n none A X (constant (F := Ideal) S16x80000 .f32 0x00000000#32))
        (broadcastTo S16x80000 b Facts₀.broadcasts_S16x1_S16x80000))
      (broadcast S16x80000 (Scalar.ofBits (F := Ideal) .f32 0x00000000#32)) (ix2 p q) = layerAt A b X p q := by
  have hm : matmul dot_S16x16_S16x80000_S16x80000_1_0_0_1_n_n none A X (constant (F := Ideal) S16x80000 .f32 0x00000000#32) (ix2 p q)
      = ∑ r : Fin 16, A (ix2 p r) * X (ix2 r q) := Cert.LibDotPlain.matmul_zero_plain 16 16 80000 none A X p q
  show FloatOps.maximumf (F := Ideal) (φ := .f32) (FloatOps.addf (F := Ideal) (φ := .f32)
      (matmul dot_S16x16_S16x80000_S16x80000_1_0_0_1_n_n none A X (constant (F := Ideal) S16x80000 .f32 0x00000000#32) (ix2 p q))
      (broadcastTo S16x80000 b Facts₀.broadcasts_S16x1_S16x80000 (ix2 p q))) (Scalar.ofBits (F := Ideal) .f32 0x00000000#32) = _
  rw [hm, column_broadcast_apply]
  rfl

/-- The body's operations of both layers, read at entry (p, q): the outer layer at (p, q), its operand entry by entry. -/
theorem two_layers_apply (w1 w2 : FVec Ideal S16x16 .f32) (b1 b2 : FVec Ideal S16x1 .f32) (X : FVec Ideal S16x80000 .f32) (p : Fin 16) (q : Fin 80000) :
    maximumf (addf (matmul dot_S16x16_S16x80000_S16x80000_1_0_0_1_n_n none w2
          (maximumf (addf (matmul dot_S16x16_S16x80000_S16x80000_1_0_0_1_n_n none w1 X (constant (F := Ideal) S16x80000 .f32 0x00000000#32))
              (broadcastTo S16x80000 b1 Facts₀.broadcasts_S16x1_S16x80000))
            (broadcast S16x80000 (Scalar.ofBits (F := Ideal) .f32 0x00000000#32)))
          (constant (F := Ideal) S16x80000 .f32 0x00000000#32))
        (broadcastTo S16x80000 b2 Facts₀.broadcasts_S16x1_S16x80000))
      (broadcast S16x80000 (Scalar.ofBits (F := Ideal) .f32 0x00000000#32)) (ix2 p q) = twoLayersAt w1 w2 b1 b2 X p q := by
  refine (layer_apply w2 b2 _ p q).trans ?_
  unfold layerAt twoLayersAt
  refine congrArg (fun s : Ideal .f32 => FloatOps.maximumf (F := Ideal) (φ := .f32)
    (FloatOps.addf (F := Ideal) (φ := .f32) s (b2 (ix2 p (0 : Fin 1)))) Cert.Spec.zero) ?_
  refine Finset.sum_congr rfl fun k _ => ?_
  exact congrArg (fun y : Ideal .f32 => w2 (ix2 p k) * y) (layer_apply w1 b1 X k q)

/-! ## The two payloads at an entry -/

/-- The payload stored in the left half, at entry (p, q): two layers over the first input block. -/
theorem pay5_apply (w1 w2 : Vec Ideal S16x16 .f32) (b1 b2 : Vec Ideal S16x1 .f32) (x : Vec Ideal S16x80000 .f32) (p : Fin 16) (q : Fin 80000) :
    k0_pay5 (F := Ideal) w1 w2 b1 b2 x (ix2 p q) = twoLayersAt w1 w2 b1 b2 x p q := by
  unfold k0_pay5 k0_pay1 k0_pay2 k0_pay3 k0_pay4
  simp only [shapeCast_self]
  exact two_layers_apply w1 w2 b1 b2 x p q

/-- The payload stored in the right half, at entry (p, q): two layers over the second input block. -/
theorem pay6_apply (w1 w2 : Vec Ideal S16x16 .f32) (b1 b2 : Vec Ideal S16x1 .f32) (x : Vec Ideal S16x80000 .f32) (p : Fin 16) (q : Fin 80000) :
    k0_pay6 (F := Ideal) w1 w2 b1 b2 x (ix2 p q) = twoLayersAt w1 w2 b1 b2 x p q := by
  unfold k0_pay6 k0_pay1 k0_pay2 k0_pay3 k0_pay4
  simp only [shapeCast_self]
  exact two_layers_apply w1 w2 b1 b2 x p q

/-! ## The output buffer after the body, at an entry -/

theorem zeros2 : (![0, 0] : Fin 2 → Nat) = fun _ => 0 := funext fun a => by fin_cases a <;> rfl

/-- Columns below 80000 of the output buffer lie off the second store's rectangle and under the first's: entry
    (p, q) there is two layers over the first input block at (p, q). -/
theorem out6_left (x0 x1 : Vec Ideal S16x80000 .f32) (w1 : Vec Ideal S16x16 .f32) (b1 : Vec Ideal S16x1 .f32)
    (w2 : Vec Ideal S16x16 .f32) (b2 : Vec Ideal S16x1 .f32) (p : Fin 16) (q : Fin 80000) (y : S16x160000.Idx)
    (h0 : (y 0).val = p.val) (h1 : (y 1).val = q.val) :
    out6 x0 x1 w1 b1 w2 b2 y = twoLayersAt w1 w2 b1 b2 x0 p q := by
  have hy : y = rL.emb (ix2 p q) := funext fun a => Fin.ext (by
    match a with
    | ⟨0, _⟩ => show (y 0).val = 0 + 1 * p.val; omega
    | ⟨1, _⟩ => show (y 1).val = 0 + 1 * q.val; omega)
  have hn : y ∉ rR.set := by
    rw [Rect.mem_set_unit]
    intro h
    have h' : 80000 ≤ (y 1).val := (h 1).1
    have := q.isLt
    omega
  unfold out6
  rw [View.canon_cons_of_not_mem ⟨rR, _⟩ _ hn, hy, View.canon_cons_emb]
  simp only [View.ld_unit_zero (S := S16x16) zeros2, View.ld_unit_zero (S := S16x1) zeros2, View.ld_unit_zero (S := S16x80000) zeros2]
  exact pay5_apply w1 w2 b1 b2 x0 p q

/-- Columns from 80000 on lie under the second store's rectangle: entry (p, 80000 + q) is two layers over the
    second input block at (p, q). -/
theorem out6_right (x0 x1 : Vec Ideal S16x80000 .f32) (w1 : Vec Ideal S16x16 .f32) (b1 : Vec Ideal S16x1 .f32)
    (w2 : Vec Ideal S16x16 .f32) (b2 : Vec Ideal S16x1 .f32) (p : Fin 16) (q : Fin 80000) (y : S16x160000.Idx)
    (h0 : (y 0).val = p.val) (h1 : (y 1).val = 80000 + q.val) :
    out6 x0 x1 w1 b1 w2 b2 y = twoLayersAt w1 w2 b1 b2 x1 p q := by
  have hy : y = rR.emb (ix2 p q) := funext fun a => Fin.ext (by
    match a with
    | ⟨0, _⟩ => show (y 0).val = 0 + 1 * p.val; omega
    | ⟨1, _⟩ => show (y 1).val = 80000 + 1 * q.val; omega)
  unfold out6
  rw [hy, View.canon_cons_emb]
  simp only [View.ld_unit_zero (S := S16x16) zeros2, View.ld_unit_zero (S := S16x1) zeros2, View.ld_unit_zero (S := S16x80000) zeros2]
  exact pay6_apply w1 w2 b1 b2 x1 p q

/-! ## The blocks of the windows at a point -/

variable (m : (ℓ : Loc nD τ sig) → Buf (Elt Ideal) ℓ)

/-- The printed index maps, decided over the 20 points: the two input windows sit at column blocks 2 t and 2 t + 1
    (of width 80000), the output window at column block t (of width 160000), the weights and biases at block 0;
    every window at row block 0. -/
theorem idx_facts : ∀ t : Fin cfg0.N,
    win0_0.index t (0 : Fin 2) = 0 ∧ win0_0.index t (1 : Fin 2) = 2 * t.val
    ∧ win0_1.index t (0 : Fin 2) = 0 ∧ win0_1.index t (1 : Fin 2) = 2 * t.val + 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- The first input block at point t, entry (r, q), is the transposed input at (r, 160000 t + q). -/
theorem iblk0_apply (c : Dev nD) (t : Fin cfg0.N) (r : Fin 16) (q : Fin 80000) (e : Fin 3200000)
    (he : e.val = 160000 * t.val + q.val) :
    iblk m c 0 t (ix2 r q) = V m c main_v0 (ix2 r e) := by
  obtain ⟨e0, e1, -⟩ := idx_facts t
  show V m c main_v0 (((cfg0.win 0).blk t).view.emb (ix2 r q)) = V m c main_v0 (ix2 r e)
  refine congrArg (V m c main_v0) (funext fun a => Fin.ext ?_)
  match a with
  | ⟨0, _⟩ => show win0_0.index t (0 : Fin 2) * 16 + 1 * r.val = r.val; omega
  | ⟨1, _⟩ => show win0_0.index t (1 : Fin 2) * 80000 + 1 * q.val = e.val; omega

/-- The second input block at point t, entry (r, q), is the transposed input at (r, 160000 t + 80000 + q). -/
theorem iblk1_apply (c : Dev nD) (t : Fin cfg0.N) (r : Fin 16) (q : Fin 80000) (e : Fin 3200000)
    (he : e.val = 160000 * t.val + 80000 + q.val) :
    iblk m c 1 t (ix2 r q) = V m c main_v0 (ix2 r e) := by
  obtain ⟨-, -, e0, e1, -⟩ := idx_facts t
  show V m c main_v0 (((cfg0.win 1).blk t).view.emb (ix2 r q)) = V m c main_v0 (ix2 r e)
  refine congrArg (V m c main_v0) (funext fun a => Fin.ext ?_)
  match a with
  | ⟨0, _⟩ => show win0_1.index t (0 : Fin 2) * 16 + 1 * r.val = r.val; omega
  | ⟨1, _⟩ => show win0_1.index t (1 : Fin 2) * 80000 + 1 * q.val = e.val; omega

/-- The weights' and the biases' windows hold their whole arrays at every point. -/
theorem iblk2_apply (c : Dev nD) (t : Fin cfg0.N) (a b : Fin 16) : iblk m c 2 t (ix2 a b) = V m c main_v1 (ix2 a b) := by
  obtain ⟨-, -, -, -, e0, e1, -⟩ := idx_facts t
  show V m c main_v1 (((cfg0.win 2).blk t).view.emb (ix2 a b)) = V m c main_v1 (ix2 a b)
  refine congrArg (V m c main_v1) (funext fun ax => Fin.ext ?_)
  match ax with
  | ⟨0, _⟩ => show win0_2.index t (0 : Fin 2) * 16 + 1 * a.val = a.val; omega
  | ⟨1, _⟩ => show win0_2.index t (1 : Fin 2) * 16 + 1 * b.val = b.val; omega

theorem iblk3_apply (c : Dev nD) (t : Fin cfg0.N) (a : Fin 16) : iblk m c 3 t (ix2 a (0 : Fin 1)) = V m c main_v3 (ix2 a (0 : Fin 1)) := by
  obtain ⟨-, -, -, -, -, -, e0, e1, -⟩ := idx_facts t
  show V m c main_v3 (((cfg0.win 3).blk t).view.emb (ix2 a (0 : Fin 1))) = V m c main_v3 (ix2 a (0 : Fin 1))
  refine congrArg (V m c main_v3) (funext fun ax => Fin.ext ?_)
  match ax with
  | ⟨0, _⟩ => show win0_3.index t (0 : Fin 2) * 16 + 1 * a.val = a.val; omega
  | ⟨1, _⟩ => show win0_3.index t (1 : Fin 2) * 1 + 1 * 0 = 0; omega

theorem iblk4_apply (c : Dev nD) (t : Fin cfg0.N) (a b : Fin 16) : iblk m c 4 t (ix2 a b) = V m c main_v2 (ix2 a b) := by
  obtain ⟨-, -, -, -, -, -, -, -, e0, e1, -⟩ := idx_facts t
  show V m c main_v2 (((cfg0.win 4).blk t).view.emb (ix2 a b)) = V m c main_v2 (ix2 a b)
  refine congrArg (V m c main_v2) (funext fun ax => Fin.ext ?_)
  match ax with
  | ⟨0, _⟩ => show win0_4.index t (0 : Fin 2) * 16 + 1 * a.val = a.val; omega
  | ⟨1, _⟩ => show win0_4.index t (1 : Fin 2) * 16 + 1 * b.val = b.val; omega

theorem iblk5_apply (c : Dev nD) (t : Fin cfg0.N) (a : Fin 16) : iblk m c 5 t (ix2 a (0 : Fin 1)) = V m c main_v4 (ix2 a (0 : Fin 1)) := by
  obtain ⟨-, -, -, -, -, -, -, -, -, -, e0, e1, -⟩ := idx_facts t
  show V m c main_v4 (((cfg0.win 5).blk t).view.emb (ix2 a (0 : Fin 1))) = V m c main_v4 (ix2 a (0 : Fin 1))
  refine congrArg (V m c main_v4) (funext fun ax => Fin.ext ?_)
  match ax with
  | ⟨0, _⟩ => show win0_5.index t (0 : Fin 2) * 16 + 1 * a.val = a.val; omega
  | ⟨1, _⟩ => show win0_5.index t (1 : Fin 2) * 1 + 1 * 0 = 0; omega

/-! ## The whole output array -/

/-- Two layers over the whole transposed input, entry by entry: what the region leaves in its output array. -/
def outT (w1 w2 : FVec Ideal S16x16 .f32) (b1 b2 : FVec Ideal S16x1 .f32) (xT : FVec Ideal S16x3200000 .f32) :
    S16x3200000.Idx → Ideal .f32 :=
  fun i => twoLayersAt w1 w2 b1 b2 xT ⟨(i 0).val, idx2_lt0 i⟩ ⟨(i 1).val, idx2_lt1 i⟩

theorem outT_apply (w1 w2 : FVec Ideal S16x16 .f32) (b1 b2 : FVec Ideal S16x1 .f32) (xT : FVec Ideal S16x3200000 .f32)
    (i : S16x3200000.Idx) (p : Fin 16) (e : Fin 3200000) (h0 : (i 0).val = p.val) (h1 : (i 1).val = e.val) :
    outT w1 w2 b1 b2 xT i = twoLayersAt w1 w2 b1 b2 xT p e := by
  unfold outT
  have hp : (⟨(i 0).val, idx2_lt0 i⟩ : Fin 16) = p := Fin.ext h0
  have he : (⟨(i 1).val, idx2_lt1 i⟩ : Fin 3200000) = e := Fin.ext h1
  rw [hp, he]

/-- WHAT POINT t WRITES BACK is block t of the whole output array: columns [160000 t, 160000 t + 80000) come from the
    first input block, the next 80000 from the second, and each input block is the matching run of columns of the
    transposed input. -/
theorem flushed6_eq (c : Dev nD) (t : Fin cfg0.N) :
    (dats m 0 c).flushed 6 t = ((cfg0.win 6).blk t).view.read (Elt Ideal)
      (outT (V m c main_v1) (V m c main_v2) (V m c main_v3) (V m c main_v4) (V m c main_v0)) := by
  obtain ⟨-, -, -, -, -, -, -, -, -, -, -, -, e0, e1⟩ := idx_facts t
  have ht : t.val < 20 := lt_of_lt_of_eq t.isLt N_0
  show (cfg0.win 6).cut (grid0.coords t) ((dats m 0 c).after 6 t) = _
  rw [after6]
  funext j
  show out6 (iblk m c 0 t) (iblk m c 1 t) (iblk m c 2 t) (iblk m c 3 t) (iblk m c 4 t) (iblk m c 5 t) ((cfg0.win 6).xinj (grid0.coords t) j)
      = outT (V m c main_v1) (V m c main_v2) (V m c main_v3) (V m c main_v4) (V m c main_v0) (((cfg0.win 6).blk t).view.emb j)
  have hj0 : (j 0).val < 16 := (j 0).isLt
  have hj1 : (j 1).val < 160000 := (j 1).isLt
  have hi0 : ((((cfg0.win 6).blk t).view.emb j) 0).val = (j 0).val := by
    show win0_6.index t (0 : Fin 2) * 16 + 1 * (j 0).val = (j 0).val; omega
  have hi1 : ((((cfg0.win 6).blk t).view.emb j) 1).val = 160000 * t.val + (j 1).val := by
    show win0_6.index t (1 : Fin 2) * 160000 + 1 * (j 1).val = 160000 * t.val + (j 1).val; omega
  by_cases h : (j 1).val < 80000
  · refine (out6_left (iblk m c 0 t) (iblk m c 1 t) (iblk m c 2 t) (iblk m c 3 t) (iblk m c 4 t) (iblk m c 5 t)
      ⟨(j 0).val, hj0⟩ ⟨(j 1).val, h⟩ ((cfg0.win 6).xinj (grid0.coords t) j) rfl rfl).trans ?_
    refine Eq.trans ?_ (outT_apply (V m c main_v1) (V m c main_v2) (V m c main_v3) (V m c main_v4) (V m c main_v0)
      (((cfg0.win 6).blk t).view.emb j) ⟨(j 0).val, hj0⟩ ⟨160000 * t.val + (j 1).val, by omega⟩ hi0 hi1).symm
    exact twoLayersAt_congr (iblk2_apply m c t) (iblk4_apply m c t) (iblk3_apply m c t) (iblk5_apply m c t) rfl
      (fun r => iblk0_apply m c t r ⟨(j 1).val, h⟩ ⟨160000 * t.val + (j 1).val, by omega⟩ rfl)
  · refine (out6_right (iblk m c 0 t) (iblk m c 1 t) (iblk m c 2 t) (iblk m c 3 t) (iblk m c 4 t) (iblk m c 5 t)
      ⟨(j 0).val, hj0⟩ ⟨(j 1).val - 80000, by omega⟩ ((cfg0.win 6).xinj (grid0.coords t) j) rfl
      (by show (j 1).val = 80000 + ((j 1).val - 80000); omega)).trans ?_
    refine Eq.trans ?_ (outT_apply (V m c main_v1) (V m c main_v2) (V m c main_v3) (V m c main_v4) (V m c main_v0)
      (((cfg0.win 6).blk t).view.emb j) ⟨(j 0).val, hj0⟩ ⟨160000 * t.val + (j 1).val, by omega⟩ hi0 hi1).symm
    exact twoLayersAt_congr (iblk2_apply m c t) (iblk4_apply m c t) (iblk3_apply m c t) (iblk5_apply m c t) rfl
      (fun r => iblk1_apply m c t r ⟨(j 1).val - 80000, by omega⟩ ⟨160000 * t.val + (j 1).val, by omega⟩
        (by show 160000 * t.val + (j 1).val = 160000 * t.val + 80000 + ((j 1).val - 80000); omega))

/-- An index of the output array is in point t's block iff each coordinate is in the block's range on its axis. -/
theorem mem_blk6 (t : Fin cfg0.N) (i : S16x3200000.Idx) :
    i ∈ ((cfg0.win 6).blk t).view.set ↔ ∀ a : Fin 2, win0_6.index t a * S16x160000.size a ≤ (i a).val
      ∧ (i a).val < win0_6.index t a * S16x160000.size a + S16x160000.size a := by
  show i ∈ ((View.whole main_v5).slice (win0_6.rect t)).set ↔ _
  rw [View.set_slice_whole, Rect.mem_set_unit]
  exact Iff.rfl

/-- The 20 blocks tile the array: column e is in the block of point e / 160000. -/
theorem cover6 (i : S16x3200000.Idx) :
    ∃ t : Fin cfg0.N, (cfg0.win 6).flush t = true ∧ i ∈ ((cfg0.win 6).blk t).view.set := by
  have hi0 : (i 0).val < 16 := (i 0).isLt
  have hi1 : (i 1).val < 3200000 := (i 1).isLt
  obtain ⟨t, ht⟩ : ∃ t : Fin cfg0.N, t.val = (i 1).val / 160000 :=
    ⟨⟨(i 1).val / 160000, lt_of_lt_of_eq (show (i 1).val / 160000 < 20 by omega) N_0.symm⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 16 ≤ (i 0).val ∧ (i 0).val < win0_6.index t (0 : Fin 2) * 16 + 16
    omega
  | ⟨1, _⟩ =>
    show win0_6.index t (1 : Fin 2) * 160000 ≤ (i 1).val ∧ (i 1).val < win0_6.index t (1 : Fin 2) * 160000 + 160000
    omega

/-- THE OUTPUT ARRAY after the last write-back: two layers over the transposed input, entry by entry. -/
theorem out5_eq (c : Dev nD) :
    out5 m c = outT (V m c main_v1) (V m c main_v2) (V m c main_v3) (V m c main_v4) (V m c main_v0) :=
  (dats m 0 c).arrAt_eq_of_cover 6 _ (fun t _ => flushed6_eq m c t) cover6

/-! ## The specification -/

/-- Two layers over transposed matrices, column biases and the transposed input are the perceptron of the
    specification: each product's two factors change places, nothing else. -/
theorem twoLayersAt_eq_mlp (x : (⟨Cert.Spec.SEx16, .f32⟩ : BufTy).Contents (Elt Ideal)) (W1 : (⟨Cert.Spec.SWt, .f32⟩ : BufTy).Contents (Elt Ideal))
    (b1 : (⟨Cert.Spec.SBias, .f32⟩ : BufTy).Contents (Elt Ideal)) (W2 : (⟨Cert.Spec.SWt, .f32⟩ : BufTy).Contents (Elt Ideal))
    (b2 : (⟨Cert.Spec.SBias, .f32⟩ : BufTy).Contents (Elt Ideal))
    (xT : FVec Ideal S16x3200000 .f32) (w1T w2T : FVec Ideal S16x16 .f32) (b1c b2c : FVec Ideal S16x1 .f32)
    (hx : ∀ (k : Fin 16) (e : Fin 3200000), xT (ix2 k e) = x (ix2 e k))
    (h1 : ∀ j k : Fin 16, w1T (ix2 j k) = W1 (ix2 k j)) (h2 : ∀ j k : Fin 16, w2T (ix2 j k) = W2 (ix2 k j))
    (hb1 : ∀ j : Fin 16, b1c (ix2 j (0 : Fin 1)) = b1 (ix1 j)) (hb2 : ∀ j : Fin 16, b2c (ix2 j (0 : Fin 1)) = b2 (ix1 j))
    (e : Fin 3200000) (j : Fin 16) :
    twoLayersAt w1T w2T b1c b2c xT j e = Cert.Spec.mlp x W1 b1 W2 b2 (ix2 e j) := by
  unfold twoLayersAt layerAt
  simp only [hx, h1, h2, hb1, hb2]
  show _ = FloatOps.maximumf (F := Ideal) (φ := .f32) (FloatOps.addf (F := Ideal) (φ := .f32)
    (∑ k : Fin 16, Cert.Spec.hidden x W1 b1 e k * W2 (ix2 k j) : Ideal .f32) (b2 (ix1 j))) Cert.Spec.zero
  refine congrArg (fun s : Ideal .f32 => FloatOps.maximumf (F := Ideal) (φ := .f32)
    (FloatOps.addf (F := Ideal) (φ := .f32) s (b2 (ix1 j))) Cert.Spec.zero) ?_
  refine Finset.sum_congr rfl fun k _ => ?_
  rw [mul_comm]
  refine congrArg (fun y : Ideal .f32 => y * W2 (ix2 k j)) ?_
  unfold Cert.Spec.hidden
  refine congrArg (fun s : Ideal .f32 => FloatOps.maximumf (F := Ideal) (φ := .f32)
    (FloatOps.addf (F := Ideal) (φ := .f32) s (b1 (ix1 k))) Cert.Spec.zero) ?_
  exact Finset.sum_congr rfl fun r _ => mul_comm _ _

/-- At the ideal instance the program's result is `Cert.Spec.mlp` of the five arguments as launched. -/
theorem res6_eq (c : Dev nD) :
    res6 (F := Ideal) m c = Cert.Spec.mlp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine funext fun (i : S3200000x16.Idx) => ?_
  obtain ⟨e, j, rfl⟩ : ∃ (e : Fin 3200000) (j : Fin 16), i = ix2 e j := ⟨i 0, i 1, eq_ix2 i⟩
  rw [res6_apply, out5_eq]
  refine (outT_apply (V m c main_v1) (V m c main_v2) (V m c main_v3) (V m c main_v4) (V m c main_v0) (ix2 j e) j e rfl rfl).trans ?_
  exact twoLayersAt_eq_mlp _ _ _ _ _ (V m c main_v0) (V m c main_v1) (V m c main_v2) (V m c main_v3) (V m c main_v4)
    (V_v0_apply m c) (V_v1_apply m c) (V_v2_apply m c) (fun j => V_v3_apply m c j 0) (fun j => V_v4_apply m c j 0) e j

end Cert.KernelIdeal.Hand

end
-- ==== Proof.RefValue.lean ====
/-
  The reference's result, index by index: its last stage, read through the generated one-operation-at-a-time lemmas,
  is the two-layer perceptron of the specification.

  Each matrix product reads its left operand at (row of the result, k) and its right operand at (k, column of the
  result); each bias is broadcast along the rows, so it is read at the result's column. With these index equations the
  first relu stage is the specification's hidden unit, and the last stage is the specification's output.
-/
import proofs.«174670_g52252572123261_cont_8to1_c_723_16_alg».proof.Proof.Gen.ReferenceIdeal.Run
import proofs.«174670_g52252572123261_cont_8to1_c_723_16_alg».proof.Proof.Gen.ReferenceIdeal.Read
import proofs.«174670_g52252572123261_cont_8to1_c_723_16_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- First product, left operand: element `k` of the sum at `i` reads row `i 0`, column `k`. -/
theorem lidx_v0_eq (i : S3200000x16.Idx) (k : Fin 16) : lidx_main_v0 i k = ix2 (i 0) k :=
  funext fun a => Fin.ext (by match a with | ⟨0, _⟩ => rfl | ⟨1, _⟩ => rfl)

/-- First product, right operand: element `k` of the sum at `i` reads row `k`, column `i 1`. -/
theorem ridx_v0_eq (i : S3200000x16.Idx) (k : Fin 16) : ridx_main_v0 i k = ix2 k (i 1) :=
  funext fun a => Fin.ext (by match a with | ⟨0, _⟩ => rfl | ⟨1, _⟩ => rfl)

/-- Second product, left operand: row `i 0`, column `k`. -/
theorem lidx_v5_eq (i : S3200000x16.Idx) (k : Fin 16) : lidx_main_v5 i k = ix2 (i 0) k :=
  funext fun a => Fin.ext (by match a with | ⟨0, _⟩ => rfl | ⟨1, _⟩ => rfl)

/-- Second product, right operand: row `k`, column `i 1`. -/
theorem ridx_v5_eq (i : S3200000x16.Idx) (k : Fin 16) : ridx_main_v5 i k = ix2 k (i 1) :=
  funext fun a => Fin.ext (by match a with | ⟨0, _⟩ => rfl | ⟨1, _⟩ => rfl)

/-- The first bias, broadcast to a row and then along the rows, is read at the column `i 1`. -/
theorem idx_v1_v2_eq (i : S3200000x16.Idx) : idx_main_v1 (idx_main_v2 i) = ix1 (i 1) :=
  funext fun a => Fin.ext (by match a with | ⟨0, _⟩ => rfl)

/-- The second bias, broadcast the same way, is read at the column `i 1`. -/
theorem idx_v6_v7_eq (i : S3200000x16.Idx) : idx_main_v6 (idx_main_v7 i) = ix1 (i 1) :=
  funext fun a => Fin.ext (by match a with | ⟨0, _⟩ => rfl)

/-- The first relu stage at edge `e`, unit `j` is the specification's hidden unit:
    `max (∑ k, x0[e,k] * x1[k,j] + x2[j]) 0`. -/
theorem v4_eq (x0 : (⟨S3200000x16, .f32⟩ : BufTy).Contents (Elt Ideal)) (x1 : (⟨S16x16, .f32⟩ : BufTy).Contents (Elt Ideal))
    (x2 : (⟨S16, .f32⟩ : BufTy).Contents (Elt Ideal)) (e : Fin 3200000) (j : Fin 16) :
    val_main_v4 (F := Ideal) x0 x1 x2 (ix2 e j) = Cert.Spec.hidden x0 x1 x2 e j := by
  rw [val_main_v4_apply, val_main_v3_apply, val_main_v0_apply, val_main_v2_apply, val_main_v1_apply,
    val_main_call0_v0_apply, val_main_call0_cst_apply, idx_v1_v2_eq]
  simp only [lidx_v0_eq, ridx_v0_eq]
  rfl

/-- The reference's result array, as a function of its five arguments, is `Cert.Spec.mlp` of them. -/
theorem ref_eq (x0 : (⟨S3200000x16, .f32⟩ : BufTy).Contents (Elt Ideal)) (x1 : (⟨S16x16, .f32⟩ : BufTy).Contents (Elt Ideal))
    (x2 : (⟨S16, .f32⟩ : BufTy).Contents (Elt Ideal)) (x3 : (⟨S16x16, .f32⟩ : BufTy).Contents (Elt Ideal))
    (x4 : (⟨S16, .f32⟩ : BufTy).Contents (Elt Ideal)) :
    val_main_v9 (F := Ideal) x0 x1 x2 x3 x4 = Cert.Spec.mlp x0 x1 x2 x3 x4 := by
  funext i
  rw [val_main_v9_apply, val_main_v8_apply, val_main_v5_apply, val_main_v7_apply, val_main_v6_apply,
    val_main_call1_v0_apply, val_main_call1_cst_apply, idx_v6_v7_eq]
  simp only [lidx_v5_eq, ridx_v5_eq]
  -- the two sums agree term by term: the left factor is the hidden unit at (i 0, k)
  have hs : (∑ k : Fin 16, val_main_v4 (F := Ideal) x0 x1 x2 (ix2 (i 0) k) * x3 (ix2 k (i 1)) : Ideal .f32)
      = ∑ k : Fin 16, Cert.Spec.hidden x0 x1 x2 (i 0) k * x3 (ix2 k (i 1)) :=
    Finset.sum_congr rfl fun k _ => congrArg (· * x3 (ix2 k (i 1))) (v4_eq x0 x1 x2 (i 0) k)
  -- the bias, the addition, the zero and the maximum are the same terms on both sides
  exact congrArg (fun s : Ideal .f32 => FloatOps.maximumf (F := Ideal) (φ := .f32)
    (FloatOps.addf (F := Ideal) (φ := .f32) s (x4 (ix1 (i 1)))) Cert.Spec.zero) hs

end Cert.ReferenceIdeal.RefValue

end
-- ==== Proof.lean ====
/-
  The certificate's claims, assembled.

  The kernel computes the two-layer perceptron relu (relu (x W1 + b1) W2 + b2) of 3200000 edge rows on the
  TRANSPOSED input: the host transposes x, W1 and W2 and reshapes the biases to columns, a pipelined region computes
  relu (W2^T relu (W1^T x^T + b1) + b2) block of columns by block of columns, and the host transposes the result back.
  The reference computes the same on the rows directly. At the ideal instance every entry of either result is
      max (sum_k max (sum_q x[e,q] W1[q,k] + b1[k]) 0 * W2[k,j] + b2[j]) 0,
  the kernel's products with their two factors in the other order; no finiteness of the inputs is used.

  The three frames: each program runs to the end from any memory with zero semaphore counters, faulting nowhere, and
  leaves its five arguments as they were — for the kernel as printed (at the word-level instance) and as idealized by
  its run through the pipeline's launch, for the reference by its run read back. The idealization rewrote no
  operation, so there is nothing to preserve.
-/
import proofs.«174670_g52252572123261_cont_8to1_c_723_16_alg».proof.Defs
import proofs.«174670_g52252572123261_cont_8to1_c_723_16_alg».proof.Proof.Gen.Kernel
import proofs.«174670_g52252572123261_cont_8to1_c_723_16_alg».proof.Proof.Gen.KernelIdeal
import proofs.«174670_g52252572123261_cont_8to1_c_723_16_alg».proof.Proof.Gen.ReferenceIdeal
import proofs.«174670_g52252572123261_cont_8to1_c_723_16_alg».proof.Proof.Gen.Pre_finite_inputs
import proofs.«174670_g52252572123261_cont_8to1_c_723_16_alg».proof.Proof.Gen.ReferenceIdeal.Run
import proofs.«174670_g52252572123261_cont_8to1_c_723_16_alg».proof.Proof.Gen.ReferenceIdeal.Read
import proofs.«174670_g52252572123261_cont_8to1_c_723_16_alg».proof.Proof.KernelRun
import proofs.«174670_g52252572123261_cont_8to1_c_723_16_alg».proof.Proof.KernelIdealRun
import proofs.«174670_g52252572123261_cont_8to1_c_723_16_alg».proof.Proof.KernelIdealValue
import proofs.«174670_g52252572123261_cont_8to1_c_723_16_alg».proof.Proof.RefValue
import Idealize.ShloMosaic.Adequacy
import Idealize.ShloMosaic.Init

noncomputable section

namespace Cert.Proof

open Idealize.ShloMosaic Idealize.ShloMosaic.TcCoe Idealize.SL.Sem

/-- The printed kernel, at the word-level instance: its run, with the result dropped. -/
theorem frame_kernel : Cert.frame_Kernel := fun m ρ _ =>
  (θ_run Cert.Kernel.defs _ _).mono (fun _ h c => (h c).2) (Cert.Kernel.Hand.run_main (F := Bits) m ρ)

/-- The idealized kernel, at the ideal instance: the same run. -/
theorem frame_kernelIdeal : Cert.frame_KernelIdeal := fun m ρ _ =>
  (θ_run Cert.KernelIdeal.defs _ _).mono (fun _ h c => (h c).2) (Cert.KernelIdeal.Hand.run_main (F := Ideal) m ρ)

/-- The reference: its run read back, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the perceptron of those arguments in their
    result buffers: the kernel's run ends at the transposed pipeline output, which is that function index by index;
    the reference's run ends at its last stage, which is the same function. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.res6_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
